-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x131072x128 : Shape := ⟨3, ![4, 131072, 128]⟩
abbrev S4x131072 : Shape := ⟨2, ![4, 131072]⟩
abbrev S16384x1 : Shape := ⟨2, ![16384, 1]⟩
abbrev S4x500x128 : Shape := ⟨3, ![4, 500, 128]⟩
abbrev S4x500 : Shape := ⟨2, ![4, 500]⟩
abbrev S4x200x500 : Shape := ⟨3, ![4, 200, 500]⟩
abbrev S4x200 : Shape := ⟨2, ![4, 200]⟩
abbrev S4x100x200 : Shape := ⟨3, ![4, 100, 200]⟩
abbrev S4x100 : Shape := ⟨2, ![4, 100]⟩
abbrev S4x1x100 : Shape := ⟨3, ![4, 1, 100]⟩
abbrev S4x1 : Shape := ⟨2, ![4, 1]⟩
abbrev S_ : Shape := ⟨0, ![]⟩

class Facts : Prop where
  bcast_S_S4x131072x128 : S_.BroadcastsInDim S4x131072x128 (![] : Fin 0 → Fin S4x131072x128.rank)
  reducesTo_S4x131072x128_S_d0_1_2 : S4x131072x128.ReducesTo [0, 1, 2] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S4x500x128 : S_.BroadcastsInDim S4x500x128 (![] : Fin 0 → Fin S4x500x128.rank)
  reducesTo_S4x500x128_S_d0_1_2 : S4x500x128.ReducesTo [0, 1, 2] S_
  bcast_S_S4x500 : S_.BroadcastsInDim S4x500 (![] : Fin 0 → Fin S4x500.rank)
  reducesTo_S4x500_S_d0_1 : S4x500.ReducesTo [0, 1] S_
  bcast_S_S4x200x500 : S_.BroadcastsInDim S4x200x500 (![] : Fin 0 → Fin S4x200x500.rank)
  reducesTo_S4x200x500_S_d0_1_2 : S4x200x500.ReducesTo [0, 1, 2] S_
  bcast_S_S4x200 : S_.BroadcastsInDim S4x200 (![] : Fin 0 → Fin S4x200.rank)
  reducesTo_S4x200_S_d0_1 : S4x200.ReducesTo [0, 1] S_
  bcast_S_S4x100x200 : S_.BroadcastsInDim S4x100x200 (![] : Fin 0 → Fin S4x100x200.rank)
  reducesTo_S4x100x200_S_d0_1_2 : S4x100x200.ReducesTo [0, 1, 2] S_
  bcast_S_S4x100 : S_.BroadcastsInDim S4x100 (![] : Fin 0 → Fin S4x100.rank)
  reducesTo_S4x100_S_d0_1 : S4x100.ReducesTo [0, 1] S_
  bcast_S_S4x1x100 : S_.BroadcastsInDim S4x1x100 (![] : Fin 0 → Fin S4x1x100.rank)
  reducesTo_S4x1x100_S_d0_1_2 : S4x1x100.ReducesTo [0, 1, 2] S_
  bcast_S_S4x1 : S_.BroadcastsInDim S4x1 (![] : Fin 0 → Fin S4x1.rank)
  reducesTo_S4x1_S_d0_1 : S4x1.ReducesTo [0, 1] S_

variable [Facts]

def fn_part2 {F : FTy → Type} [FloatOps F] (main_arg8 : FVec F S4x100 .f32) (main_arg9 : FVec F S4x1x100 .f32) (main_arg10 : FVec F S4x1 .f32) (main_v33 : IVec S_ 1) : IVec S_ 1 :=
  let main_v34 : FVec F S4x100 .f32 := Host.absf main_arg8
  let main_cst_12 : FVec F S_ .f32 := constant S_ .f32 0x7F800000#32
  let main_v35 : FVec F S4x100 .f32 := broadcastInDim S4x100 ![] bcast_S_S4x100 main_cst_12
  let main_v36 : IVec S4x100 1 := cmpf .olt main_v34 main_v35
  let main_c_13 : IVec S_ 1 := constantI S_ 1 1#1
  let main_v37 : IVec S_ 1 := (fun x v => Host.reduce IntOp.andi x v reducesTo_S4x100_S_d0_1 h_S_) main_v36 main_c_13
  let main_v38 : IVec S_ 1 := andi main_v33 main_v37
  let main_v39 : FVec F S4x1x100 .f32 := Host.absf main_arg9
  let main_cst_14 : FVec F S_ .f32 := constant S_ .f32 0x7F800000#32
  let main_v40 : FVec F S4x1x100 .f32 := broadcastInDim S4x1x100 ![] bcast_S_S4x1x100 main_cst_14
  let main_v41 : IVec S4x1x100 1 := cmpf .olt main_v39 main_v40
  let main_c_15 : IVec S_ 1 := constantI S_ 1 1#1
  let main_v42 : IVec S_ 1 := (fun x v => Host.reduce IntOp.andi x v reducesTo_S4x1x100_S_d0_1_2 h_S_) main_v41 main_c_15
  let main_v43 : IVec S_ 1 := andi main_v38 main_v42
  let main_v44 : FVec F S4x1 .f32 := Host.absf main_arg10
  let main_cst_16 : FVec F S_ .f32 := constant S_ .f32 0x7F800000#32
  let main_v45 : FVec F S4x1 .f32 := broadcastInDim S4x1 ![] bcast_S_S4x1 main_cst_16
  let main_v46 : IVec S4x1 1 := cmpf .olt main_v44 main_v45
  let main_c_17 : IVec S_ 1 := constantI S_ 1 1#1
  let main_v47 : IVec S_ 1 := (fun x v => Host.reduce IntOp.andi x v reducesTo_S4x1_S_d0_1 h_S_) main_v46 main_c_17
  let main_v48 : IVec S_ 1 := andi main_v43 main_v47
  main_v48

def fn_part1 {F : FTy → Type} [FloatOps F] (main_arg5 : FVec F S4x200x500 .f32) (main_arg6 : FVec F S4x200 .f32) (main_arg7 : FVec F S4x100x200 .f32) (main_arg8 : FVec F S4x100 .f32) (main_arg9 : FVec F S4x1x100 .f32) (main_arg10 : FVec F S4x1 .f32) (main_v13 : IVec S_ 1) (main_v16 : IVec S4x500 1) : IVec S_ 1 :=
  let main_c_5 : IVec S_ 1 := constantI S_ 1 1#1
  let main_v17 : IVec S_ 1 := (fun x v => Host.reduce IntOp.andi x v reducesTo_S4x500_S_d0_1 h_S_) main_v16 main_c_5
  let main_v18 : IVec S_ 1 := andi main_v13 main_v17
  let main_v19 : FVec F S4x200x500 .f32 := Host.absf main_arg5
  let main_cst_6 : FVec F S_ .f32 := constant S_ .f32 0x7F800000#32
  let main_v20 : FVec F S4x200x500 .f32 := broadcastInDim S4x200x500 ![] bcast_S_S4x200x500 main_cst_6
  let main_v21 : IVec S4x200x500 1 := cmpf .olt main_v19 main_v20
  let main_c_7 : IVec S_ 1 := constantI S_ 1 1#1
  let main_v22 : IVec S_ 1 := (fun x v => Host.reduce IntOp.andi x v reducesTo_S4x200x500_S_d0_1_2 h_S_) main_v21 main_c_7
  let main_v23 : IVec S_ 1 := andi main_v18 main_v22
  let main_v24 : FVec F S4x200 .f32 := Host.absf main_arg6
  let main_cst_8 : FVec F S_ .f32 := constant S_ .f32 0x7F800000#32
  let main_v25 : FVec F S4x200 .f32 := broadcastInDim S4x200 ![] bcast_S_S4x200 main_cst_8
  let main_v26 : IVec S4x200 1 := cmpf .olt main_v24 main_v25
  let main_c_9 : IVec S_ 1 := constantI S_ 1 1#1
  let main_v27 : IVec S_ 1 := (fun x v => Host.reduce IntOp.andi x v reducesTo_S4x200_S_d0_1 h_S_) main_v26 main_c_9
  let main_v28 : IVec S_ 1 := andi main_v23 main_v27
  let main_v29 : FVec F S4x100x200 .f32 := Host.absf main_arg7
  let main_cst_10 : FVec F S_ .f32 := constant S_ .f32 0x7F800000#32
  let main_v30 : FVec F S4x100x200 .f32 := broadcastInDim S4x100x200 ![] bcast_S_S4x100x200 main_cst_10
  let main_v31 : IVec S4x100x200 1 := cmpf .olt main_v29 main_v30
  let main_c_11 : IVec S_ 1 := constantI S_ 1 1#1
  let main_v32 : IVec S_ 1 := (fun x v => Host.reduce IntOp.andi x v reducesTo_S4x100x200_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S4x131072x128 .f32) (main_arg1 : IVec S4x131072 32) (main_arg2 : FVec F S16384x1 .f32) (main_arg3 : FVec F S4x500x128 .f32) (main_arg4 : FVec F S4x500 .f32) (main_arg5 : FVec F S4x200x500 .f32) (main_arg6 : FVec F S4x200 .f32) (main_arg7 : FVec F S4x100x200 .f32) (main_arg8 : FVec F S4x100 .f32) (main_arg9 : FVec F S4x1x100 .f32) (main_arg10 : FVec F S4x1 .f32) : IVec S_ 1 :=
  let main_v0 : FVec F S4x131072x128 .f32 := Host.absf main_arg0
  let main_cst : FVec F S_ .f32 := constant S_ .f32 0x7F800000#32
  let main_v1 : FVec F S4x131072x128 .f32 := broadcastInDim S4x131072x128 ![] bcast_S_S4x131072x128 main_cst
  let main_v2 : IVec S4x131072x128 1 := cmpf .olt main_v0 main_v1
  let main_c : IVec S_ 1 := constantI S_ 1 1#1
  let main_v3 : IVec S_ 1 := (fun x v => Host.reduce IntOp.andi x v reducesTo_S4x131072x128_S_d0_1_2 h_S_) main_v2 main_c
  let main_v4 : FVec F S16384x1 .f32 := Host.absf main_arg2
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S4x500x128 .f32 := Host.absf main_arg3
  let main_cst_2 : FVec F S_ .f32 := constant S_ .f32 0x7F800000#32
  let main_v10 : FVec F S4x500x128 .f32 := broadcastInDim S4x500x128 ![] bcast_S_S4x500x128 main_cst_2
  let main_v11 : IVec S4x500x128 1 := cmpf .olt main_v9 main_v10
  let main_c_3 : IVec S_ 1 := constantI S_ 1 1#1
  let main_v12 : IVec S_ 1 := (fun x v => Host.reduce IntOp.andi x v reducesTo_S4x500x128_S_d0_1_2 h_S_) main_v11 main_c_3
  let main_v13 : IVec S_ 1 := andi main_v8 main_v12
  let main_v14 : FVec F S4x500 .f32 := Host.absf main_arg4
  let main_cst_4 : FVec F S_ .f32 := constant S_ .f32 0x7F800000#32
  let main_v15 : FVec F S4x500 .f32 := broadcastInDim S4x500 ![] bcast_S_S4x500 main_cst_4
  let main_v16 : IVec S4x500 1 := cmpf .olt main_v14 main_v15
  fn_part1 (F := F) main_arg5 main_arg6 main_arg7 main_arg8 main_arg9 main_arg10 main_v13 main_v16
-- ==== Kernel.lean ====
abbrev S4x131072x128 : Shape := ⟨3, ![4, 131072, 128]⟩
abbrev S4x131072 : Shape := ⟨2, ![4, 131072]⟩
abbrev S16384x1 : Shape := ⟨2, ![16384, 1]⟩
abbrev S4x500x128 : Shape := ⟨3, ![4, 500, 128]⟩
abbrev S4x500 : Shape := ⟨2, ![4, 500]⟩
abbrev S4x200x500 : Shape := ⟨3, ![4, 200, 500]⟩
abbrev S4x200 : Shape := ⟨2, ![4, 200]⟩
abbrev S4x100x200 : Shape := ⟨3, ![4, 100, 200]⟩
abbrev S4x100 : Shape := ⟨2, ![4, 100]⟩
abbrev S4x1x100 : Shape := ⟨3, ![4, 1, 100]⟩
abbrev S4x1 : Shape := ⟨2, ![4, 1]⟩
abbrev S4x128x500 : Shape := ⟨3, ![4, 128, 500]⟩
abbrev S_ : Shape := ⟨0, ![]⟩
abbrev S4x128x512 : Shape := ⟨3, ![4, 128, 512]⟩
abbrev S4x1x500 : Shape := ⟨3, ![4, 1, 500]⟩
abbrev S4x1x512 : Shape := ⟨3, ![4, 1, 512]⟩
abbrev S4x500x200 : Shape := ⟨3, ![4, 500, 200]⟩
abbrev S4x512x200 : Shape := ⟨3, ![4, 512, 200]⟩
abbrev S4x512x256 : Shape := ⟨3, ![4, 512, 256]⟩
abbrev S4x1x200 : Shape := ⟨3, ![4, 1, 200]⟩
abbrev S4x1x256 : Shape := ⟨3, ![4, 1, 256]⟩
abbrev S4x200x100 : Shape := ⟨3, ![4, 200, 100]⟩
abbrev S4x256x100 : Shape := ⟨3, ![4, 256, 100]⟩
abbrev S4x256x128 : Shape := ⟨3, ![4, 256, 128]⟩
abbrev S4x1x128 : Shape := ⟨3, ![4, 1, 128]⟩
abbrev S4x100x1 : Shape := ⟨3, ![4, 100, 1]⟩
abbrev S4x128x1 : Shape := ⟨3, ![4, 128, 1]⟩
abbrev S4x1x1 : Shape := ⟨3, ![4, 1, 1]⟩
abbrev S4x131072x1 : Shape := ⟨3, ![4, 131072, 1]⟩
abbrev S1x2048x128 : Shape := ⟨3, ![1, 2048, 128]⟩
abbrev S1x128x512 : Shape := ⟨3, ![1, 128, 512]⟩
abbrev S1x1x512 : Shape := ⟨3, ![1, 1, 512]⟩
abbrev S1x512x256 : Shape := ⟨3, ![1, 512, 256]⟩
abbrev S1x1x256 : Shape := ⟨3, ![1, 1, 256]⟩
abbrev S1x256x128 : Shape := ⟨3, ![1, 256, 128]⟩
abbrev S1x1x128 : Shape := ⟨3, ![1, 1, 128]⟩
abbrev S1x128x1 : Shape := ⟨3, ![1, 128, 1]⟩
abbrev S1x1x1 : Shape := ⟨3, ![1, 1, 1]⟩
abbrev S1x2048x1 : Shape := ⟨3, ![1, 2048, 1]⟩
abbrev S2048x128 : Shape := ⟨2, ![2048, 128]⟩
abbrev S128x512 : Shape := ⟨2, ![128, 512]⟩
abbrev S2048x512 : Shape := ⟨2, ![2048, 512]⟩
abbrev S1x512 : Shape := ⟨2, ![1, 512]⟩
abbrev S512x256 : Shape := ⟨2, ![512, 256]⟩
abbrev S2048x256 : Shape := ⟨2, ![2048, 256]⟩
abbrev S1x256 : Shape := ⟨2, ![1, 256]⟩
abbrev S256x128 : Shape := ⟨2, ![256, 128]⟩
abbrev S1x128 : Shape := ⟨2, ![1, 128]⟩
abbrev S128x1 : Shape := ⟨2, ![128, 1]⟩
abbrev S2048x1 : Shape := ⟨2, ![2048, 1]⟩
abbrev S1x1 : Shape := ⟨2, ![1, 1]⟩
abbrev S524288x1 : Shape := ⟨2, ![524288, 1]⟩
abbrev S524288 : Shape := ⟨1, ![524288]⟩

abbrev nBuf : Space → Nat
  | .hbm => 62
  | .vmem => 20
  | .smem => 0
  | _ => 0

abbrev bufTy : (tb : Table) → Fin (tcTables nBuf tb) → BufTy
  | .hbm, ⟨0, _⟩ => ⟨S4x131072x128, .f32⟩
  | .hbm, ⟨1, _⟩ => ⟨S4x131072, .i32⟩
  | .hbm, ⟨2, _⟩ => ⟨S16384x1, .f32⟩
  | .hbm, ⟨3, _⟩ => ⟨S4x500x128, .f32⟩
  | .hbm, ⟨4, _⟩ => ⟨S4x500, .f32⟩
  | .hbm, ⟨5, _⟩ => ⟨S4x200x500, .f32⟩
  | .hbm, ⟨6, _⟩ => ⟨S4x200, .f32⟩
  | .hbm, ⟨7, _⟩ => ⟨S4x100x200, .f32⟩
  | .hbm, ⟨8, _⟩ => ⟨S4x100, .f32⟩
  | .hbm, ⟨9, _⟩ => ⟨S4x1x100, .f32⟩
  | .hbm, ⟨10, _⟩ => ⟨S4x1, .f32⟩
  | .hbm, ⟨11, _⟩ => ⟨S4x128x500, .f32⟩
  | .hbm, ⟨12, _⟩ => ⟨S_, .i32⟩
  | .hbm, ⟨13, _⟩ => ⟨S_, .f32⟩
  | .hbm, ⟨14, _⟩ => ⟨S4x128x512, .f32⟩
  | .hbm, ⟨15, _⟩ => ⟨S4x128x512, .bf16⟩
  | .hbm, ⟨16, _⟩ => ⟨S4x1x500, .f32⟩
  | .hbm, ⟨17, _⟩ => ⟨S_, .i32⟩
  | .hbm, ⟨18, _⟩ => ⟨S_, .f32⟩
  | .hbm, ⟨19, _⟩ => ⟨S4x1x512, .f32⟩
  | .hbm, ⟨20, _⟩ => ⟨S4x500x200, .f32⟩
  | .hbm, ⟨21, _⟩ => ⟨S_, .i32⟩
  | .hbm, ⟨22, _⟩ => ⟨S_, .f32⟩
  | .hbm, ⟨23, _⟩ => ⟨S4x512x200, .f32⟩
  | .hbm, ⟨24, _⟩ => ⟨S_, .i32⟩
  | .hbm, ⟨25, _⟩ => ⟨S_, .f32⟩
  | .hbm, ⟨26, _⟩ => ⟨S4x512x256, .f32⟩
  | .hbm, ⟨27, _⟩ => ⟨S4x512x256, .bf16⟩
  | .hbm, ⟨28, _⟩ => ⟨S4x1x200, .f32⟩
  | .hbm, ⟨29, _⟩ => ⟨S_, .i32⟩
  | .hbm, ⟨30, _⟩ => ⟨S_, .f32⟩
  | .hbm, ⟨31, _⟩ => ⟨S4x1x256, .f32⟩
  | .hbm, ⟨32, _⟩ => ⟨S4x200x100, .f32⟩
  | .hbm, ⟨33, _⟩ => ⟨S_, .i32⟩
  | .hbm, ⟨34, _⟩ => ⟨S_, .f32⟩
  | .hbm, ⟨35, _⟩ => ⟨S4x256x100, .f32⟩
  | .hbm, ⟨36, _⟩ => ⟨S_, .i32⟩
  | .hbm, ⟨37, _⟩ => ⟨S_, .f32⟩
  | .hbm, ⟨38, _⟩ => ⟨S4x256x128, .f32⟩
  | .hbm, ⟨39, _⟩ => ⟨S4x256x128, .bf16⟩
  | .hbm, ⟨40, _⟩ => ⟨S4x1x100, .f32⟩
  | .hbm, ⟨41, _⟩ => ⟨S_, .i32⟩
  | .hbm, ⟨42, _⟩ => ⟨S_, .f32⟩
  | .hbm, ⟨43, _⟩ => ⟨S4x1x128, .f32⟩
  | .hbm, ⟨44, _⟩ => ⟨S4x100x1, .f32⟩
  | .hbm, ⟨45, _⟩ => ⟨S_, .i32⟩
  | .hbm, ⟨46, _⟩ => ⟨S_, .f32⟩
  | .hbm, ⟨47, _⟩ => ⟨S4x128x1, .f32⟩
  | .hbm, ⟨48, _⟩ => ⟨S4x128x1, .bf16⟩
  | .hbm, ⟨49, _⟩ => ⟨S4x1x1, .f32⟩
  | .hbm, ⟨50, _⟩ => ⟨S4x131072x1, .f32⟩
  | .hbm, ⟨51, _⟩ => ⟨S524288x1, .f32⟩
  | .hbm, ⟨52, _⟩ => ⟨S524288, .i32⟩
  | .hbm, ⟨53, _⟩ => ⟨S_, .i32⟩
  | .hbm, ⟨54, _⟩ => ⟨S524288, .i32⟩
  | .hbm, ⟨55, _⟩ => ⟨S524288, .i1⟩
  | .hbm, ⟨56, _⟩ => ⟨S_, .i32⟩
  | .hbm, ⟨57, _⟩ => ⟨S524288, .i32⟩
  | .hbm, ⟨58, _⟩ => ⟨S524288, .i32⟩
  | .hbm, ⟨59, _⟩ => ⟨S524288, .i32⟩
  | .hbm, ⟨60, _⟩ => ⟨S524288x1, .i32⟩
  | .hbm, ⟨61, _⟩ => ⟨S16384x1, .f32⟩
  | .local _ .vmem, ⟨0, _⟩ => ⟨S1x2048x128, .f32⟩
  | .local _ .vmem, ⟨1, _⟩ => ⟨S1x2048x128, .f32⟩
  | .local _ .vmem, ⟨2, _⟩ => ⟨S1x128x512, .bf16⟩
  | .local _ .vmem, ⟨3, _⟩ => ⟨S1x128x512, .bf16⟩
  | .local _ .vmem, ⟨4, _⟩ => ⟨S1x1x512, .f32⟩
  | .local _ .vmem, ⟨5, _⟩ => ⟨S1x1x512, .f32⟩
  | .local _ .vmem, ⟨6, _⟩ => ⟨S1x512x256, .bf16⟩
  | .local _ .vmem, ⟨7, _⟩ => ⟨S1x512x256, .bf16⟩
  | .local _ .vmem, ⟨8, _⟩ => ⟨S1x1x256, .f32⟩
  | .local _ .vmem, ⟨9, _⟩ => ⟨S1x1x256, .f32⟩
  | .local _ .vmem, ⟨10, _⟩ => ⟨S1x256x128, .bf16⟩
  | .local _ .vmem, ⟨11, _⟩ => ⟨S1x256x128, .bf16⟩
  | .local _ .vmem, ⟨12, _⟩ => ⟨S1x1x128, .f32⟩
  | .local _ .vmem, ⟨13, _⟩ => ⟨S1x1x128, .f32⟩
  | .local _ .vmem, ⟨14, _⟩ => ⟨S1x128x1, .bf16⟩
  | .local _ .vmem, ⟨15, _⟩ => ⟨S1x128x1, .bf16⟩
  | .local _ .vmem, ⟨16, _⟩ => ⟨S1x1x1, .f32⟩
  | .local _ .vmem, ⟨17, _⟩ => ⟨S1x1x1, .f32⟩
  | .local _ .vmem, ⟨18, _⟩ => ⟨S1x2048x1, .f32⟩
  | .local _ .vmem, ⟨19, _⟩ => ⟨S1x2048x1, .f32⟩
  | _, _ => ⟨S4x131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_call2_v0 : Ref sig .tc := ⟨.hbm, 22, rfl⟩
abbrev main_v6 : Ref sig .tc := ⟨.hbm, 23, rfl⟩
abbrev main_c_2 : Ref sig .tc := ⟨.hbm, 24, rfl⟩
abbrev main_call3_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_3 : Ref sig .tc := ⟨.hbm, 29, rfl⟩
abbrev main_call4_v0 : Ref sig .tc := ⟨.hbm, 30, rfl⟩
abbrev main_v10 : Ref sig .tc := ⟨.hbm, 31, rfl⟩
abbrev main_v11 : Ref sig .tc := ⟨.hbm, 32, rfl⟩
abbrev main_c_4 : Ref sig .tc := ⟨.hbm, 33, rfl⟩
abbrev main_call5_v0 : Ref sig .tc := ⟨.hbm, 34, rfl⟩
abbrev main_v12 : Ref sig .tc := ⟨.hbm, 35, rfl⟩
abbrev main_c_5 : Ref sig .tc := ⟨.hbm, 36, rfl⟩
abbrev main_call6_v0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_6 : Ref sig .tc := ⟨.hbm, 41, rfl⟩
abbrev main_call7_v0 : Ref sig .tc := ⟨.hbm, 42, rfl⟩
abbrev main_v16 : Ref sig .tc := ⟨.hbm, 43, rfl⟩
abbrev main_v17 : Ref sig .tc := ⟨.hbm, 44, rfl⟩
abbrev main_c_7 : Ref sig .tc := ⟨.hbm, 45, rfl⟩
abbrev main_call8_v0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_8 : Ref sig .tc := ⟨.hbm, 53, rfl⟩
abbrev main_v24 : Ref sig .tc := ⟨.hbm, 54, rfl⟩
abbrev main_v25 : Ref sig .tc := ⟨.hbm, 55, rfl⟩
abbrev main_c_9 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S4x500x128_S4x128x500_0_2_1 : S4x500x128.Transposes [0, 2, 1] S4x128x500
  pads_S4x128x500_S4x128x512_000_000_0120 : S4x128x500.Pads (![0, 0, 0] : Fin 3 → Nat) ![0, 0, 12] ![0, 0, 0] S4x128x512
  h_S_ : 0 < S_.numel
  bitsLt_bf16_f32 : FTy.bits .bf16 < FTy.bits .f32
  shapeCasts_S4x500_S4x1x500 : S4x500.ShapeCasts S4x1x500
  pads_S4x1x500_S4x1x512_000_000_0120 : S4x1x500.Pads (![0, 0, 0] : Fin 3 → Nat) ![0, 0, 12] ![0, 0, 0] S4x1x512
  transposes_S4x200x500_S4x500x200_0_2_1 : S4x200x500.Transposes [0, 2, 1] S4x500x200
  pads_S4x500x200_S4x512x200_000_0120_000 : S4x500x200.Pads (![0, 0, 0] : Fin 3 → Nat) ![0, 12, 0] ![0, 0, 0] S4x512x200
  pads_S4x512x200_S4x512x256_000_000_0560 : S4x512x200.Pads (![0, 0, 0] : Fin 3 → Nat) ![0, 0, 56] ![0, 0, 0] S4x512x256
  shapeCasts_S4x200_S4x1x200 : S4x200.ShapeCasts S4x1x200
  pads_S4x1x200_S4x1x256_000_000_0560 : S4x1x200.Pads (![0, 0, 0] : Fin 3 → Nat) ![0, 0, 56] ![0, 0, 0] S4x1x256
  transposes_S4x100x200_S4x200x100_0_2_1 : S4x100x200.Transposes [0, 2, 1] S4x200x100
  pads_S4x200x100_S4x256x100_000_0560_000 : S4x200x100.Pads (![0, 0, 0] : Fin 3 → Nat) ![0, 56, 0] ![0, 0, 0] S4x256x100
  pads_S4x256x100_S4x256x128_000_000_0280 : S4x256x100.Pads (![0, 0, 0] : Fin 3 → Nat) ![0, 0, 28] ![0, 0, 0] S4x256x128
  shapeCasts_S4x100_S4x1x100 : S4x100.ShapeCasts S4x1x100
  pads_S4x1x100_S4x1x128_000_000_0280 : S4x1x100.Pads (![0, 0, 0] : Fin 3 → Nat) ![0, 0, 28] ![0, 0, 0] S4x1x128
  transposes_S4x1x100_S4x100x1_0_2_1 : S4x1x100.Transposes [0, 2, 1] S4x100x1
  pads_S4x100x1_S4x128x1_000_0280_000 : S4x100x1.Pads (![0, 0, 0] : Fin 3 → Nat) ![0, 28, 0] ![0, 0, 0] S4x128x1
  shapeCasts_S4x1_S4x1x1 : S4x1.ShapeCasts S4x1x1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S2048x128 : S1x128.Broadcasts S2048x128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S2048x1 : S1x1.Broadcasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  shapeCasts_S4x131072x1_S524288x1 : S4x131072x1.ShapeCasts S524288x1
  shapeCasts_S4x131072_S524288 : S4x131072.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  dot_S2048x128_S128x512_S2048x512_1_0_0_1_n_n_wf : DotDims.WF S2048x128 S128x512 S2048x512 [1] [0] [0] [1] [] []
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  scatter_S16384x1_S524288x1_S524288x1_1_0_0_1_wf : ScatterDims.WF S16384x1 S524288x1 S524288x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S4x131072x128.size a
  hwx0_0 : ∀ i : grid0.Coords, EltTy.bits .f32 = 32 ∨ (Rect.block (s := S4x131072x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .bf16 = 32 ∨ (Rect.block (s := S4x128x512) S1x128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x512.size a
  hwx0_2 : ∀ i : grid0.Coords, EltTy.bits .f32 = 32 ∨ (Rect.block (s := S4x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S4x512x256.size a
  hwx0_3 : ∀ i : grid0.Coords, EltTy.bits .bf16 = 32 ∨ (Rect.block (s := S4x512x256) S1x512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S4x1x256.size a
  hwx0_4 : ∀ i : grid0.Coords, EltTy.bits .f32 = 32 ∨ (Rect.block (s := S4x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x128.size a ≤ S4x256x128.size a
  hwx0_5 : ∀ i : grid0.Coords, EltTy.bits .bf16 = 32 ∨ (Rect.block (s := S4x256x128) S1x256x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S4x1x128.size a
  hwx0_6 : ∀ i : grid0.Coords, EltTy.bits .f32 = 32 ∨ (Rect.block (s := S4x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x1.size a ≤ S4x128x1.size a
  hwx0_7 : ∀ i : grid0.Coords, EltTy.bits .bf16 = 32 ∨ (Rect.block (s := S4x128x1) S1x128x1.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S4x1x1.size a
  hwx0_8 : ∀ i : grid0.Coords, EltTy.bits .f32 = 32 ∨ (Rect.block (s := S4x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048x1.size a ≤ S4x131072x1.size a
  hwx0_9 : ∀ i : grid0.Coords, EltTy.bits .f32 = 32 ∨ (Rect.block (s := S4x131072x1) S1x2048x1.size (cc0_transform_9 i) (hinb0_9 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def scatter_S16384x1_S524288x1_S524288x1_1_0_0_1 : ScatterDims S16384x1 S524288x1 S524288x1 where
  updateWindowDims := [1]
  insertedWindowDims := [0]
  scatterDimsToOperandDims := [0]
  indexVectorDim := 1
  wf := scatter_S16384x1_S524288x1_S524288x1_1_0_0_1_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x256x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x128x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x1x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x131072x128 : Shape := ⟨3, ![4, 131072, 128]⟩
abbrev S4x131072 : Shape := ⟨2, ![4, 131072]⟩
abbrev S16384x1 : Shape := ⟨2, ![16384, 1]⟩
abbrev S4x500x128 : Shape := ⟨3, ![4, 500, 128]⟩
abbrev S4x500 : Shape := ⟨2, ![4, 500]⟩
abbrev S4x200x500 : Shape := ⟨3, ![4, 200, 500]⟩
abbrev S4x200 : Shape := ⟨2, ![4, 200]⟩
abbrev S4x100x200 : Shape := ⟨3, ![4, 100, 200]⟩
abbrev S4x100 : Shape := ⟨2, ![4, 100]⟩
abbrev S4x1x100 : Shape := ⟨3, ![4, 1, 100]⟩
abbrev S4x1 : Shape := ⟨2, ![4, 1]⟩
abbrev S4x131072x500 : Shape := ⟨3, ![4, 131072, 500]⟩
abbrev S4x1x500 : Shape := ⟨3, ![4, 1, 500]⟩
abbrev S_ : Shape := ⟨0, ![]⟩
abbrev S4x131072x200 : Shape := ⟨3, ![4, 131072, 200]⟩
abbrev S4x1x200 : Shape := ⟨3, ![4, 1, 200]⟩
abbrev S4x131072x100 : Shape := ⟨3, ![4, 131072, 100]⟩
abbrev S4x131072x1 : Shape := ⟨3, ![4, 131072, 1]⟩
abbrev S4x1x1 : Shape := ⟨3, ![4, 1, 1]⟩
abbrev S524288 : Shape := ⟨1, ![524288]⟩
abbrev S524288x1 : Shape := ⟨2, ![524288, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x131072x128, .f32⟩
  | .hbm, ⟨1, _⟩ => ⟨S4x131072, .i32⟩
  | .hbm, ⟨2, _⟩ => ⟨S16384x1, .f32⟩
  | .hbm, ⟨3, _⟩ => ⟨S4x500x128, .f32⟩
  | .hbm, ⟨4, _⟩ => ⟨S4x500, .f32⟩
  | .hbm, ⟨5, _⟩ => ⟨S4x200x500, .f32⟩
  | .hbm, ⟨6, _⟩ => ⟨S4x200, .f32⟩
  | .hbm, ⟨7, _⟩ => ⟨S4x100x200, .f32⟩
  | .hbm, ⟨8, _⟩ => ⟨S4x100, .f32⟩
  | .hbm, ⟨9, _⟩ => ⟨S4x1x100, .f32⟩
  | .hbm, ⟨10, _⟩ => ⟨S4x1, .f32⟩
  | .hbm, ⟨11, _⟩ => ⟨S4x131072x500, .f32⟩
  | .hbm, ⟨12, _⟩ => ⟨S4x1x500, .f32⟩
  | .hbm, ⟨13, _⟩ => ⟨S4x131072x500, .f32⟩
  | .hbm, ⟨14, _⟩ => ⟨S4x131072x500, .f32⟩
  | .hbm, ⟨15, _⟩ => ⟨S_, .f32⟩
  | .hbm, ⟨16, _⟩ => ⟨S4x131072x500, .f32⟩
  | .hbm, ⟨17, _⟩ => ⟨S4x131072x500, .f32⟩
  | .hbm, ⟨18, _⟩ => ⟨S4x131072x200, .f32⟩
  | .hbm, ⟨19, _⟩ => ⟨S4x1x200, .f32⟩
  | .hbm, ⟨20, _⟩ => ⟨S4x131072x200, .f32⟩
  | .hbm, ⟨21, _⟩ => ⟨S4x131072x200, .f32⟩
  | .hbm, ⟨22, _⟩ => ⟨S_, .f32⟩
  | .hbm, ⟨23, _⟩ => ⟨S4x131072x200, .f32⟩
  | .hbm, ⟨24, _⟩ => ⟨S4x131072x200, .f32⟩
  | .hbm, ⟨25, _⟩ => ⟨S4x131072x100, .f32⟩
  | .hbm, ⟨26, _⟩ => ⟨S4x1x100, .f32⟩
  | .hbm, ⟨27, _⟩ => ⟨S4x131072x100, .f32⟩
  | .hbm, ⟨28, _⟩ => ⟨S4x131072x100, .f32⟩
  | .hbm, ⟨29, _⟩ => ⟨S_, .f32⟩
  | .hbm, ⟨30, _⟩ => ⟨S4x131072x100, .f32⟩
  | .hbm, ⟨31, _⟩ => ⟨S4x131072x100, .f32⟩
  | .hbm, ⟨32, _⟩ => ⟨S4x131072x1, .f32⟩
  | .hbm, ⟨33, _⟩ => ⟨S4x1x1, .f32⟩
  | .hbm, ⟨34, _⟩ => ⟨S4x131072x1, .f32⟩
  | .hbm, ⟨35, _⟩ => ⟨S4x131072x1, .f32⟩
  | .hbm, ⟨36, _⟩ => ⟨S524288, .i32⟩
  | .hbm, ⟨37, _⟩ => ⟨S524288x1, .f32⟩
  | .hbm, ⟨38, _⟩ => ⟨S_, .i32⟩
  | .hbm, ⟨39, _⟩ => ⟨S524288, .i32⟩
  | .hbm, ⟨40, _⟩ => ⟨S524288, .i1⟩
  | .hbm, ⟨41, _⟩ => ⟨S_, .i32⟩
  | .hbm, ⟨42, _⟩ => ⟨S524288, .i32⟩
  | .hbm, ⟨43, _⟩ => ⟨S524288, .i32⟩
  | .hbm, ⟨44, _⟩ => ⟨S524288, .i32⟩
  | .hbm, ⟨45, _⟩ => ⟨S524288x1, .i32⟩
  | .hbm, ⟨46, _⟩ => ⟨S16384x1, .f32⟩
  | _, _ => ⟨S4x131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call2_cst : Ref sig .tc := ⟨.hbm, 29, rfl⟩
abbrev main_call2_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]

class Facts₀ : Prop where
  bcast_S4x500_S4x1x500_0_2 : S4x500.BroadcastsInDim S4x1x500 (![0, 2] : Fin 2 → Fin S4x1x500.rank)
  bcast_S4x1x500_S4x131072x500_0_1_2 : S4x1x500.BroadcastsInDim S4x131072x500 (![0, 1, 2] : Fin 3 → Fin S4x131072x500.rank)
  bcast_S_S4x131072x500 : S_.BroadcastsInDim S4x131072x500 (![] : Fin 0 → Fin S4x131072x500.rank)
  bcast_S4x200_S4x1x200_0_2 : S4x200.BroadcastsInDim S4x1x200 (![0, 2] : Fin 2 → Fin S4x1x200.rank)
  bcast_S4x1x200_S4x131072x200_0_1_2 : S4x1x200.BroadcastsInDim S4x131072x200 (![0, 1, 2] : Fin 3 → Fin S4x131072x200.rank)
  bcast_S_S4x131072x200 : S_.BroadcastsInDim S4x131072x200 (![] : Fin 0 → Fin S4x131072x200.rank)
  bcast_S4x100_S4x1x100_0_2 : S4x100.BroadcastsInDim S4x1x100 (![0, 2] : Fin 2 → Fin S4x1x100.rank)
  bcast_S4x1x100_S4x131072x100_0_1_2 : S4x1x100.BroadcastsInDim S4x131072x100 (![0, 1, 2] : Fin 3 → Fin S4x131072x100.rank)
  bcast_S_S4x131072x100 : S_.BroadcastsInDim S4x131072x100 (![] : Fin 0 → Fin S4x131072x100.rank)
  bcast_S4x1_S4x1x1_0_2 : S4x1.BroadcastsInDim S4x1x1 (![0, 2] : Fin 2 → Fin S4x1x1.rank)
  bcast_S4x1x1_S4x131072x1_0_1_2 : S4x1x1.BroadcastsInDim S4x131072x1 (![0, 1, 2] : Fin 3 → Fin S4x131072x1.rank)
  shapeCasts_S4x131072_S524288 : S4x131072.ShapeCasts S524288
  shapeCasts_S4x131072x1_S524288x1 : S4x131072x1.ShapeCasts S524288x1
  bcast_S_S524288 : S_.BroadcastsInDim S524288 (![] : Fin 0 → Fin S524288.rank)
  bcast_S524288_S524288x1_0 : S524288.BroadcastsInDim S524288x1 (![0] : Fin 1 → Fin S524288x1.rank)
  dot_S4x131072x128_S4x500x128_S4x131072x500_2_2_1_1_0_0_wf : DotDims.WF S4x131072x128 S4x500x128 S4x131072x500 [2] [2] [1] [1] [0] [0]
  dot_S4x131072x500_S4x200x500_S4x131072x200_2_2_1_1_0_0_wf : DotDims.WF S4x131072x500 S4x200x500 S4x131072x200 [2] [2] [1] [1] [0] [0]
  dot_S4x131072x200_S4x100x200_S4x131072x100_2_2_1_1_0_0_wf : DotDims.WF S4x131072x200 S4x100x200 S4x131072x100 [2] [2] [1] [1] [0] [0]
  dot_S4x131072x100_S4x1x100_S4x131072x1_2_2_1_1_0_0_wf : DotDims.WF S4x131072x100 S4x1x100 S4x131072x1 [2] [2] [1] [1] [0] [0]
  scatter_S16384x1_S524288x1_S524288x1_1_0_0_1_wf : ScatterDims.WF S16384x1 S524288x1 S524288x1 [1] [0] [0] 1

variable [Facts₀]

def dot_S4x131072x128_S4x500x128_S4x131072x500_2_2_1_1_0_0 : DotDims S4x131072x128 S4x500x128 S4x131072x500 where
  lhsContracting := [2]
  rhsContracting := [2]
  lhsNonContracting := [1]
  rhsNonContracting := [1]
  lhsBatch := [0]
  rhsBatch := [0]
  wf := dot_S4x131072x128_S4x500x128_S4x131072x500_2_2_1_1_0_0_wf
def dot_S4x131072x500_S4x200x500_S4x131072x200_2_2_1_1_0_0 : DotDims S4x131072x500 S4x200x500 S4x131072x200 where
  lhsContracting := [2]
  rhsContracting := [2]
  lhsNonContracting := [1]
  rhsNonContracting := [1]
  lhsBatch := [0]
  rhsBatch := [0]
  wf := dot_S4x131072x500_S4x200x500_S4x131072x200_2_2_1_1_0_0_wf
def dot_S4x131072x200_S4x100x200_S4x131072x100_2_2_1_1_0_0 : DotDims S4x131072x200 S4x100x200 S4x131072x100 where
  lhsContracting := [2]
  rhsContracting := [2]
  lhsNonContracting := [1]
  rhsNonContracting := [1]
  lhsBatch := [0]
  rhsBatch := [0]
  wf := dot_S4x131072x200_S4x100x200_S4x131072x100_2_2_1_1_0_0_wf
def dot_S4x131072x100_S4x1x100_S4x131072x1_2_2_1_1_0_0 : DotDims S4x131072x100 S4x1x100 S4x131072x1 where
  lhsContracting := [2]
  rhsContracting := [2]
  lhsNonContracting := [1]
  rhsNonContracting := [1]
  lhsBatch := [0]
  rhsBatch := [0]
  wf := dot_S4x131072x100_S4x1x100_S4x131072x1_2_2_1_1_0_0_wf
def scatter_S16384x1_S524288x1_S524288x1_1_0_0_1 : ScatterDims S16384x1 S524288x1 S524288x1 where
  updateWindowDims := [1]
  insertedWindowDims := [0]
  scatterDimsToOperandDims := [0]
  indexVectorDim := 1
  wf := scatter_S16384x1_S524288x1_S524288x1_1_0_0_1_wf

class Facts : Prop extends Facts₀ where

variable [Facts]
-- ==== Proof.AtomNet.lean ====
/-
  The atom network, stated once.

  Every atom `(t, n)` — atom type `t`, atom `n` of that type — carries 128 features, and its energy is a four-layer
  perceptron of them with the weights of its type: three hidden layers of 500, 200 and 100 units, each an affine map
  followed by `max · 0`, and one affine output unit. `net` is that function of one feature row for ANY layer widths;
  `atomE` reads it off the weight arrays in the layout [type, unit, input] with biases [type, unit]; `katomE` reads the
  same `net` off operand arrays in the layout [type, input, unit] with biases [type, 1, unit] and hidden widths 512, 256
  and 128. `IsPadded` says when the second family of arrays is the first one transposed and extended by zeros; under it
  the two energies agree (Proof/PadAlgebra.lean), because a hidden unit beyond the original width has zero weights and a
  zero bias, so it holds `max 0 0 = 0`, and it feeds the next layer through zero weights.
-/
import Idealize.ShloMosaic.Lib.ValueIdx

noncomputable section

open scoped BigOperators

namespace Cert.AtomNet

open Idealize.ShloMosaic Idealize.ShloMosaic.ValueIdx

/-- An array of extended reals with three axes of the given extents. -/
abbrev Arr3 (a b c : ℕ) : Type := (⟨3, ![a, b, c]⟩ : Shape).Idx → EReal
/-- An array of extended reals with two axes of the given extents. -/
abbrev Arr2 (a b : ℕ) : Type := (⟨2, ![a, b]⟩ : Shape).Idx → EReal

/-- One affine unit: the inputs weighted and summed, plus the bias. -/
def affine {n : ℕ} (h : Fin n → EReal) (w : Fin n → EReal) (b : EReal) : EReal := (∑ i, h i * w i) + b

/-- The perceptron on one feature row `h0`: `w1 i` are the weights of unit `i` of the first hidden layer and `c1 i` its
    bias, likewise `w2`, `c2`, `w3`, `c3`; `w4`, `c4` are the output unit's. A hidden unit holds `max (affine …) 0`. -/
def net {n0 n1 n2 n3 : ℕ} (h0 : Fin n0 → EReal)
    (w1 : Fin n1 → Fin n0 → EReal) (c1 : Fin n1 → EReal)
    (w2 : Fin n2 → Fin n1 → EReal) (c2 : Fin n2 → EReal)
    (w3 : Fin n3 → Fin n2 → EReal) (c3 : Fin n3 → EReal)
    (w4 : Fin n3 → EReal) (c4 : EReal) : EReal :=
  affine (fun k => max (affine (fun j => max (affine (fun i => max (affine h0 (w1 i) (c1 i)) 0) (w2 j) (c2 j)) 0) (w3 k) (c3 k)) 0) w4 c4

/-- The energy of every atom from the weights as given: `W1 (t, unit, feature)`, `b1 (t, unit)`, …, `W4 (t, 0, unit)`,
    `b4 (t, 0)`. The result has a trailing axis of extent one. -/
def atomE (x : Arr3 4 131072 128) (W1 : Arr3 4 500 128) (b1 : Arr2 4 500) (W2 : Arr3 4 200 500) (b2 : Arr2 4 200)
    (W3 : Arr3 4 100 200) (b3 : Arr2 4 100) (W4 : Arr3 4 1 100) (b4 : Arr2 4 1) : Arr3 4 131072 1 := fun i =>
  net (fun f => x (ix3 (i 0) (i 1) f))
    (fun j f => W1 (ix3 (i 0) j f)) (fun j => b1 (ix2 (i 0) j))
    (fun j a => W2 (ix3 (i 0) j a)) (fun j => b2 (ix2 (i 0) j))
    (fun k a => W3 (ix3 (i 0) k a)) (fun k => b3 (ix2 (i 0) k))
    (fun k => W4 (ix3 (i 0) 0 k)) (b4 (ix2 (i 0) 0))

/-- The energy of every atom from operands laid out [type, input, unit] with hidden widths 512, 256, 128 and biases
    [type, 1, unit]: `P1 (t, feature, unit)`, `q1 (t, 0, unit)`, …, `P4 (t, unit, 0)`, `q4 (t, 0, 0)`. -/
def katomE (x : Arr3 4 131072 128) (P1 : Arr3 4 128 512) (q1 : Arr3 4 1 512) (P2 : Arr3 4 512 256) (q2 : Arr3 4 1 256)
    (P3 : Arr3 4 256 128) (q3 : Arr3 4 1 128) (P4 : Arr3 4 128 1) (q4 : Arr3 4 1 1) : Arr3 4 131072 1 := fun i =>
  net (fun f => x (ix3 (i 0) (i 1) f))
    (fun j f => P1 (ix3 (i 0) f j)) (fun j => q1 (ix3 (i 0) 0 j))
    (fun j a => P2 (ix3 (i 0) a j)) (fun j => q2 (ix3 (i 0) 0 j))
    (fun k a => P3 (ix3 (i 0) a k)) (fun k => q3 (ix3 (i 0) 0 k))
    (fun k => P4 (ix3 (i 0) k 0)) (q4 (ix3 (i 0) 0 0))

/-- The operands `P`, `q` are the weights `W`, `b` with the unit and input axes exchanged and every hidden axis extended
    by zeros to 512, 256, 128: an entry whose unit and input both lie inside the original widths is the weight's, every
    other entry is zero. -/
structure IsPadded (W1 : Arr3 4 500 128) (b1 : Arr2 4 500) (W2 : Arr3 4 200 500) (b2 : Arr2 4 200)
    (W3 : Arr3 4 100 200) (b3 : Arr2 4 100) (W4 : Arr3 4 1 100) (b4 : Arr2 4 1)
    (P1 : Arr3 4 128 512) (q1 : Arr3 4 1 512) (P2 : Arr3 4 512 256) (q2 : Arr3 4 1 256)
    (P3 : Arr3 4 256 128) (q3 : Arr3 4 1 128) (P4 : Arr3 4 128 1) (q4 : Arr3 4 1 1) : Prop where
  hP1 : ∀ (t : Fin 4) (f : Fin 128) (j : Fin 512),
    P1 (ix3 t f j) = if h : j.val < 500 then W1 (ix3 t ⟨j.val, h⟩ f) else 0
  hq1 : ∀ (t : Fin 4) (j : Fin 512), q1 (ix3 t 0 j) = if h : j.val < 500 then b1 (ix2 t ⟨j.val, h⟩) else 0
  hP2 : ∀ (t : Fin 4) (a : Fin 512) (j : Fin 256),
    P2 (ix3 t a j) = if h : j.val < 200 ∧ a.val < 500 then W2 (ix3 t ⟨j.val, h.1⟩ ⟨a.val, h.2⟩) else 0
  hq2 : ∀ (t : Fin 4) (j : Fin 256), q2 (ix3 t 0 j) = if h : j.val < 200 then b2 (ix2 t ⟨j.val, h⟩) else 0
  hP3 : ∀ (t : Fin 4) (a : Fin 256) (k : Fin 128),
    P3 (ix3 t a k) = if h : k.val < 100 ∧ a.val < 200 then W3 (ix3 t ⟨k.val, h.1⟩ ⟨a.val, h.2⟩) else 0
  hq3 : ∀ (t : Fin 4) (k : Fin 128), q3 (ix3 t 0 k) = if h : k.val < 100 then b3 (ix2 t ⟨k.val, h⟩) else 0
  hP4 : ∀ (t : Fin 4) (k : Fin 128), P4 (ix3 t k 0) = if h : k.val < 100 then W4 (ix3 t 0 ⟨k.val, h⟩) else 0
  hq4 : ∀ (t : Fin 4), q4 (ix3 t 0 0) = b4 (ix2 t 0)

end Cert.AtomNet

end
-- ==== Proof.BodyRow.lean ====
import proofs.«112957_j8675833938301_1_alg».proof.Proof.Gen.KernelIdeal.Frame
import proofs.«112957_j8675833938301_1_alg».proof.Proof.AtomNet
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem

namespace Cert.KernelIdeal.BodyValue

open Cert.KernelIdeal Cert.KernelIdeal.Gen

/-- The offsets of a whole-buffer rectangle of rank three are all zero. -/
theorem offsets_zero3 : (![0, 0, 0] : Fin 3 → ℕ) = fun _ => 0 := funext fun a => by fin_cases a <;> rfl

/-! ## A rows-by-columns product read at an entry -/

/-- A product of an `m × k` by a `k × n` matrix into the zero accumulator, whose dimension numbers read the left operand
    at (row of the entry, contraction position) and the right operand at (contraction position, column of the entry):
    the entry `(r, j)` is the sum over the contracted coordinate `f` of `a (r, f) * b (f, j)`. The four coordinate facts
    are hypotheses; each of the four products below supplies its own. -/
theorem matmul_entry {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ (i : (⟨2, ![m, n]⟩ : Shape).Idx) (q : D.contr.Idx), (D.lhsIdx i q 0).val = (i 0).val)
    (hl1 : ∀ (i : (⟨2, ![m, n]⟩ : Shape).Idx) (q : D.contr.Idx), (D.lhsIdx i q 1).val = (q ⟨0, by omega⟩).val)
    (hr0 : ∀ (i : (⟨2, ![m, n]⟩ : Shape).Idx) (q : D.contr.Idx), (D.rhsIdx i q 0).val = (q ⟨0, by omega⟩).val)
    (hr1 : ∀ (i : (⟨2, ![m, n]⟩ : Shape).Idx) (q : D.contr.Idx), (D.rhsIdx i q 1).val = (i 1).val)
    (a : FVec Ideal ⟨2, ![m, k]⟩ φ₁) (b : FVec Ideal ⟨2, ![k, n]⟩ φ₂) (r : Fin m) (j : Fin n) :
    matmul D none a b (constant (F := Ideal) ⟨2, ![m, n]⟩ .f32 0x00000000#32) (ix2 r j)
      = ∑ f : Fin k, a (ix2 r f) * b (ix2 f j) := by
  refine (Ideal.matmul_constant_zero_apply D none a b (ix2 r j)).trans ?_
  rw [← Equiv.sum_comp (contrEquiv1 D k hr hs).symm]
  refine Finset.sum_congr rfl fun f _ => ?_
  have hk := contrEquiv1_symm_val D k hr hs f
  have el : D.lhsIdx (ix2 r j) ((contrEquiv1 D k hr hs).symm f) = ix2 r f := funext fun ax => Fin.ext (by
    match ax with
    | ⟨0, _⟩ => exact hl0 _ _
    | ⟨1, _⟩ => exact (hl1 _ _).trans hk)
  have er : D.rhsIdx (ix2 r j) ((contrEquiv1 D k hr hs).symm f) = ix2 f j := funext fun ax => Fin.ext (by
    match ax with
    | ⟨0, _⟩ => exact (hr0 _ _).trans hk
    | ⟨1, _⟩ => exact hr1 _ _)
  rw [el, er]

/-! ## One layer read at an entry -/

/-- A layer's affine value: the product of the activations `a` (one row per atom) with the weight block `W`, read as
    (input, unit) once its leading unit axis is dropped, plus the bias block's one row repeated over the rows. Entry
    `(r, j)` is the affine unit `j` on row `r` of `a`. -/
theorem affine_entry {m k n : ℕ} (D : DotDims ⟨2, ![m, k]⟩ ⟨2, ![k, n]⟩ ⟨2, ![m, n]⟩)
    (hr : D.contr.rank = 1) (hs : D.contr.size ⟨0, by omega⟩ = k)
    (hl0 : ∀ (i : (⟨2, ![m, n]⟩ : Shape).Idx) (q : D.contr.Idx), (D.lhsIdx i q 0).val = (i 0).val)
    (hl1 : ∀ (i : (⟨2, ![m, n]⟩ : Shape).Idx) (q : D.contr.Idx), (D.lhsIdx i q 1).val = (q ⟨0, by omega⟩).val)
    (hr0 : ∀ (i : (⟨2, ![m, n]⟩ : Shape).Idx) (q : D.contr.Idx), (D.rhsIdx i q 0).val = (q ⟨0, by omega⟩).val)
    (hr1 : ∀ (i : (⟨2, ![m, n]⟩ : Shape).Idx) (q : D.contr.Idx), (D.rhsIdx i q 1).val = (i 1).val)
    (a : FVec Ideal ⟨2, ![m, k]⟩ .bf16) (W : FVec Ideal ⟨3, ![1, k, n]⟩ .bf16) (c : FVec Ideal ⟨3, ![1, 1, n]⟩ .f32)
    (hW : (⟨3, ![1, k, n]⟩ : Shape).ShapeCasts ⟨2, ![k, n]⟩) (hc : (⟨3, ![1, 1, n]⟩ : Shape).ShapeCasts ⟨2, ![1, n]⟩)
    (hb : (⟨2, ![1, n]⟩ : Shape).Broadcasts ⟨2, ![m, n]⟩) (r : Fin m) (j : Fin n) :
    addf (matmul D none a (shapeCast ⟨2, ![k, n]⟩ W hW) (constant (F := Ideal) ⟨2, ![m, n]⟩ .f32 0x00000000#32))
        (broadcastTo ⟨2, ![m, n]⟩ (shapeCast ⟨2, ![1, n]⟩ c hc) hb) (ix2 r j)
      = Cert.AtomNet.affine (fun f : Fin k => a (ix2 r f)) (fun f : Fin k => W (ix3 0 f j)) (c (ix3 0 0 j)) := by
  have h1 : matmul D none a (shapeCast ⟨2, ![k, n]⟩ W hW) (constant (F := Ideal) ⟨2, ![m, n]⟩ .f32 0x00000000#32) (ix2 r j)
      = ∑ f : Fin k, a (ix2 r f) * W (ix3 0 f j) :=
    (matmul_entry D hr hs hl0 hl1 hr0 hr1 a _ r j).trans
      (Finset.sum_congr rfl fun f _ => congrArg (a (ix2 r f) * ·) (shapeCast_1ab_ab_apply W hW f j))
  have h2 : broadcastTo ⟨2, ![m, n]⟩ (shapeCast ⟨2, ![1, n]⟩ c hc) hb (ix2 r j) = c (ix3 0 0 j) :=
    (broadcastTo_1b_ab_apply _ hb r j).trans (shapeCast_1ab_ab_apply c hc 0 j)
  unfold Cert.AtomNet.affine
  rw [addf_apply, h1, h2]

/-- A hidden layer: the affine value against the zero splat, entry by entry `max · 0`; the change of format that follows
    keeps every extended real as it is. -/
theorem hidden_entry {m k n : ℕ} (D : DotDims ⟨2, ![m, k]⟩ ⟨2, ![k, n]⟩ ⟨2, ![m, n]⟩)
    (hr : D.contr.rank = 1) (hs : D.contr.size ⟨0, by omega⟩ = k)
    (hl0 : ∀ (i : (⟨2, ![m, n]⟩ : Shape).Idx) (q : D.contr.Idx), (D.lhsIdx i q 0).val = (i 0).val)
    (hl1 : ∀ (i : (⟨2, ![m, n]⟩ : Shape).Idx) (q : D.contr.Idx), (D.lhsIdx i q 1).val = (q ⟨0, by omega⟩).val)
    (hr0 : ∀ (i : (⟨2, ![m, n]⟩ : Shape).Idx) (q : D.contr.Idx), (D.rhsIdx i q 0).val = (q ⟨0, by omega⟩).val)
    (hr1 : ∀ (i : (⟨2, ![m, n]⟩ : Shape).Idx) (q : D.contr.Idx), (D.rhsIdx i q 1).val = (i 1).val)
    (a : FVec Ideal ⟨2, ![m, k]⟩ .bf16) (W : FVec Ideal ⟨3, ![1, k, n]⟩ .bf16) (c : FVec Ideal ⟨3, ![1, 1, n]⟩ .f32)
    (hW : (⟨3, ![1, k, n]⟩ : Shape).ShapeCasts ⟨2, ![k, n]⟩) (hc : (⟨3, ![1, 1, n]⟩ : Shape).ShapeCasts ⟨2, ![1, n]⟩)
    (hb : (⟨2, ![1, n]⟩ : Shape).Broadcasts ⟨2, ![m, n]⟩) (hlt : FTy.bits .bf16 < FTy.bits .f32) (r : Fin m) (j : Fin n) :
    truncf .bf16 (maximumf
        (addf (matmul D none a (shapeCast ⟨2, ![k, n]⟩ W hW) (constant (F := Ideal) ⟨2, ![m, n]⟩ .f32 0x00000000#32))
          (broadcastTo ⟨2, ![m, n]⟩ (shapeCast ⟨2, ![1, n]⟩ c hc) hb))
        (broadcast ⟨2, ![m, n]⟩ (Scalar.ofBits (F := Ideal) .f32 0x00000000#32))) hlt (ix2 r j)
      = max (Cert.AtomNet.affine (fun f : Fin k => a (ix2 r f)) (fun f : Fin k => W (ix3 0 f j)) (c (ix3 0 0 j))) 0 := by
  refine (truncf_apply _ hlt (ix2 r j)).trans ?_
  refine (maximumf_apply _ _ (ix2 r j)).trans ?_
  rw [affine_entry D hr hs hl0 hl1 hr0 hr1 a W c hW hc hb r j]
  exact congrArg (max _) Ideal.ofBits_zero_f32

/-! ## The four products' coordinate facts

Each product contracts the left operand's axis 1 with the right operand's axis 0 and has no batch axis: the left operand
is read at (row of the entry, contraction position), the right at (contraction position, column of the entry). -/

theorem lhs1_0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide),
    dif_pos (show (0 : Fin S2048x128.rank) ∈ dot_S2048x128_S128x512_S2048x512_1_0_0_1_n_n.lhsNonContracting by decide)]
  rfl
theorem lhs1_1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
theorem rhs1_0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
theorem rhs1_1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide),
    dif_pos (show (1 : Fin S128x512.rank) ∈ dot_S2048x128_S128x512_S2048x512_1_0_0_1_n_n.rhsNonContracting by decide)]
  rfl

theorem lhs2_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl
theorem lhs2_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs2_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs2_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

theorem lhs3_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide),
    dif_pos (show (0 : Fin S2048x256.rank) ∈ dot_S2048x256_S256x128_S2048x128_1_0_0_1_n_n.lhsNonContracting by decide)]
  rfl
theorem lhs3_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs3_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs3_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide),
    dif_pos (show (1 : Fin S256x128.rank) ∈ dot_S2048x256_S256x128_S2048x128_1_0_0_1_n_n.rhsNonContracting by decide)]
  rfl

theorem lhs4_0 (i : S2048x1.Idx) (q : dot_S2048x128_S128x1_S2048x1_1_0_0_1_n_n.contr.Idx) :
    (dot_S2048x128_S128x1_S2048x1_1_0_0_1_n_n.lhsIdx i q 0).val = (i 0).val := by
  unfold DotDims.lhsIdx
  rw [dif_neg (show ¬(0 : Fin S2048x128.rank) ∈ dot_S2048x128_S128x1_S2048x1_1_0_0_1_n_n.lhsBatch by decide),
    dif_pos (show (0 : Fin S2048x128.rank) ∈ dot_S2048x128_S128x1_S2048x1_1_0_0_1_n_n.lhsNonContracting by decide)]
  rfl
theorem lhs4_1 (i : S2048x1.Idx) (q : dot_S2048x128_S128x1_S2048x1_1_0_0_1_n_n.contr.Idx) :
    (dot_S2048x128_S128x1_S2048x1_1_0_0_1_n_n.lhsIdx i q 1).val = (q ⟨0, by decide⟩).val :=
  dot_S2048x128_S128x1_S2048x1_1_0_0_1_n_n.lhsIdx_val_of_single rfl i q
theorem rhs4_0 (i : S2048x1.Idx) (q : dot_S2048x128_S128x1_S2048x1_1_0_0_1_n_n.contr.Idx) :
    (dot_S2048x128_S128x1_S2048x1_1_0_0_1_n_n.rhsIdx i q 0).val = (q ⟨0, by decide⟩).val :=
  dot_S2048x128_S128x1_S2048x1_1_0_0_1_n_n.rhsIdx_val_of_single rfl i q
theorem rhs4_1 (i : S2048x1.Idx) (q : dot_S2048x128_S128x1_S2048x1_1_0_0_1_n_n.contr.Idx) :
    (dot_S2048x128_S128x1_S2048x1_1_0_0_1_n_n.rhsIdx i q 1).val = (i 1).val := by
  unfold DotDims.rhsIdx
  rw [dif_neg (show ¬(1 : Fin S128x1.rank) ∈ dot_S2048x128_S128x1_S2048x1_1_0_0_1_n_n.rhsBatch by decide),
    dif_pos (show (1 : Fin S128x1.rank) ∈ dot_S2048x128_S128x1_S2048x1_1_0_0_1_n_n.rhsNonContracting by decide)]
  rfl

/-! ## The three payloads at an entry -/

/-- The third layer's affine value at `(r, k)`: three nested affine units on row `r` of the feature block, the first two
    followed by `max · 0`. -/
theorem pay2_entry (v0 : Vec Ideal S1x2048x128 .f32) (v3 : Vec Ideal S1x128x512 .bf16) (v6 : Vec Ideal S1x1x512 .f32)
    (v13 : Vec Ideal S1x512x256 .bf16) (v16 : Vec Ideal S1x1x256 .f32) (v23 : Vec Ideal S1x256x128 .bf16)
    (v26 : Vec Ideal S1x1x128 .f32) (r : Fin 2048) (k : Fin 128) :
    k0_pay2 (F := Ideal) v0 v3 v6 v13 v16 v23 v26 (ix2 r k)
      = Cert.AtomNet.affine
          (fun j : Fin 256 => max (Cert.AtomNet.affine
            (fun i : Fin 512 => max (Cert.AtomNet.affine (fun f : Fin 128 => v0 (ix3 0 r f)) (fun f : Fin 128 => v3 (ix3 0 f i))
              (v6 (ix3 0 0 i))) 0)
            (fun i : Fin 512 => v13 (ix3 0 i j)) (v16 (ix3 0 0 j))) 0)
          (fun j : Fin 256 => v23 (ix3 0 j k)) (v26 (ix3 0 0 k)) := by
  unfold k0_pay2
  refine (affine_entry dot_S2048x256_S256x128_S2048x128_1_0_0_1_n_n rfl rfl lhs3_0 lhs3_1 rhs3_0 rhs3_1 _ v23 v26 _ _ _ r k).trans ?_
  refine congrArg (fun h => Cert.AtomNet.affine h _ _) (funext fun j => ?_)
  refine (hidden_entry dot_S2048x512_S512x256_S2048x256_1_0_0_1_n_n rfl rfl lhs2_0 lhs2_1 rhs2_0 rhs2_1 _ v13 v16 _ _ _ _ r j).trans ?_
  refine congrArg (fun h => max (Cert.AtomNet.affine h _ _) 0) (funext fun i => ?_)
  refine (hidden_entry dot_S2048x128_S128x512_S2048x512_1_0_0_1_n_n rfl rfl lhs1_0 lhs1_1 rhs1_0 rhs1_1 _ v3 v6 _ _ _ _ r i).trans ?_
  refine congrArg (fun h => max (Cert.AtomNet.affine h _ _) 0) (funext fun f => ?_)
  exact shapeCast_1ab_ab_apply v0 _ r f

/-- The splat the third layer is compared with is zero everywhere. -/
theorem pay3_entry (r : Fin 2048) (k : Fin 128) : k0_pay3 (F := Ideal) (ix2 r k) = 0 := by
  unfold k0_pay3
  exact Ideal.ofBits_zero_f32

/-- The output block at `(0, r, 0)`: the output unit on row `r` of `max v29 v30`. -/
theorem pay1_entry (v29 v30 : FVec Ideal S2048x128 .f32) (v33 : Vec Ideal S1x128x1 .bf16) (v36 : Vec Ideal S1x1x1 .f32)
    (r : Fin 2048) :
    k0_pay1 (F := Ideal) v29 v30 v33 v36 (ix3 0 r 0)
      = Cert.AtomNet.affine (fun k : Fin 128 => max (v29 (ix2 r k)) (v30 (ix2 r k))) (fun k : Fin 128 => v33 (ix3 0 k 0))
          (v36 (ix3 0 0 0)) := by
  unfold k0_pay1
  refine (shapeCast_ab_1ab_apply _ _ 0 r 0).trans ?_
  exact affine_entry dot_S2048x128_S128x1_S2048x1_1_0_0_1_n_n rfl rfl lhs4_0 lhs4_1 rhs4_0 rhs4_1 _ v33 v36 _ _ _ r 0

/-- What the body leaves in the output block, row by row: row `r` is the perceptron of row `r` of the feature block,
    with the weight blocks read as (input, unit) and the bias blocks as (0, unit). -/
theorem out_row (x0 : Vec Ideal S1x2048x128 .f32) (x1 : Vec Ideal S1x128x512 .bf16) (x2 : Vec Ideal S1x1x512 .f32)
    (x3 : Vec Ideal S1x512x256 .bf16) (x4 : Vec Ideal S1x1x256 .f32) (x5 : Vec Ideal S1x256x128 .bf16)
    (x6 : Vec Ideal S1x1x128 .f32) (x7 : Vec Ideal S1x128x1 .bf16) (x8 : Vec Ideal S1x1x1 .f32) (r : Fin 2048) :
    out0_9 (F := Ideal) x0 x1 x2 x3 x4 x5 x6 x7 x8 (ix3 0 r 0)
      = Cert.AtomNet.net (fun f : Fin 128 => x0 (ix3 0 r f))
          (fun (j : Fin 512) (f : Fin 128) => x1 (ix3 0 f j)) (fun j : Fin 512 => x2 (ix3 0 0 j))
          (fun (j : Fin 256) (a : Fin 512) => x3 (ix3 0 a j)) (fun j : Fin 256 => x4 (ix3 0 0 j))
          (fun (k : Fin 128) (a : Fin 256) => x5 (ix3 0 a k)) (fun k : Fin 128 => x6 (ix3 0 0 k))
          (fun k : Fin 128 => x7 (ix3 0 k 0)) (x8 (ix3 0 0 0)) := by
  -- the one store covers the buffer and every load reads a whole block
  have e : out0_9 (F := Ideal) x0 x1 x2 x3 x4 x5 x6 x7 x8
      = k0_pay1 (F := Ideal) (k0_pay2 (F := Ideal) x0 x1 x2 x3 x4 x5 x6) (k0_pay3 (F := Ideal)) x7 x8 := by
    unfold out0_9
    rw [View.canon_unit_zero (S := S1x2048x1) offsets_zero3]
    rw [View.ld_unit_zero (S := S1x2048x128) offsets_zero3, View.ld_unit_zero (S := S1x128x512) offsets_zero3,
      View.ld_unit_zero (S := S1x1x512) offsets_zero3, View.ld_unit_zero (S := S1x512x256) offsets_zero3,
      View.ld_unit_zero (S := S1x1x256) offsets_zero3, View.ld_unit_zero (S := S1x256x128) offsets_zero3,
      View.ld_unit_zero (S := S1x1x128) offsets_zero3, View.ld_unit_zero (S := S1x128x1) offsets_zero3,
      View.ld_unit_zero (S := S1x1x1) offsets_zero3]
  rw [e]
  refine (pay1_entry _ _ x7 x8 r).trans ?_
  unfold Cert.AtomNet.net
  refine congrArg (fun h => Cert.AtomNet.affine h _ _) (funext fun k => ?_)
  rw [pay2_entry x0 x1 x2 x3 x4 x5 x6 r k, pay3_entry r k]

end Cert.KernelIdeal.BodyValue

end
-- ==== Proof.RegionArray.lean ====
import proofs.«112957_j8675833938301_1_alg».proof.Proof.BodyRow
import Idealize.ShloMosaic.Lib.Pipeline.Value

noncomputable section

open scoped BigOperators
open Idealize.ShloMosaic Idealize.ShloMosaic.TcCoe Idealize.ShloMosaic.ValueIdx Idealize.SL.Sem

namespace Cert.KernelIdeal.RegionValue

open Cert.KernelIdeal Cert.KernelIdeal.Gen

variable (m : (ℓ : Loc nD τ sig) → Buf (Elt Ideal) ℓ)

/-- The grid [4, 64] in row-major order: at point t the output block sits at block index (t / 64, t % 64, 0). -/
theorem idx_out : ∀ t : Fin cfg0.N,
    win0_9.index t (0 : Fin 3) = t.val / 64 ∧ win0_9.index t (1 : Fin 3) = t.val % 64 ∧ win0_9.index t (2 : Fin 3) = 0 :=
  (by decide +kernel : ∀ t : Fin grid0.N, _)

/-- The feature block moves with the output block on the type and atom axes and takes all 128 features. -/
theorem idx_feat : ∀ t : Fin cfg0.N,
    win0_0.index t (0 : Fin 3) = win0_9.index t (0 : Fin 3) ∧ win0_0.index t (1 : Fin 3) = win0_9.index t (1 : Fin 3)
      ∧ win0_0.index t (2 : Fin 3) = 0 :=
  (by decide +kernel : ∀ t : Fin grid0.N, _)

/-- Operand 1's block is the whole slab of the output block's atom type. -/
theorem idx_slab1 : ∀ t : Fin cfg0.N,
    win0_1.index t (0 : Fin 3) = win0_9.index t (0 : Fin 3) ∧ win0_1.index t (1 : Fin 3) = 0 ∧ win0_1.index t (2 : Fin 3) = 0 :=
  (by decide +kernel : ∀ t : Fin grid0.N, _)

/-- Operand 2's block is the whole slab of the output block's atom type. -/
theorem idx_slab2 : ∀ t : Fin cfg0.N,
    win0_2.index t (0 : Fin 3) = win0_9.index t (0 : Fin 3) ∧ win0_2.index t (1 : Fin 3) = 0 ∧ win0_2.index t (2 : Fin 3) = 0 :=
  (by decide +kernel : ∀ t : Fin grid0.N, _)

/-- Operand 3's block is the whole slab of the output block's atom type. -/
theorem idx_slab3 : ∀ t : Fin cfg0.N,
    win0_3.index t (0 : Fin 3) = win0_9.index t (0 : Fin 3) ∧ win0_3.index t (1 : Fin 3) = 0 ∧ win0_3.index t (2 : Fin 3) = 0 :=
  (by decide +kernel : ∀ t : Fin grid0.N, _)

/-- Operand 4's block is the whole slab of the output block's atom type. -/
theorem idx_slab4 : ∀ t : Fin cfg0.N,
    win0_4.index t (0 : Fin 3) = win0_9.index t (0 : Fin 3) ∧ win0_4.index t (1 : Fin 3) = 0 ∧ win0_4.index t (2 : Fin 3) = 0 :=
  (by decide +kernel : ∀ t : Fin grid0.N, _)

/-- Operand 5's block is the whole slab of the output block's atom type. -/
theorem idx_slab5 : ∀ t : Fin cfg0.N,
    win0_5.index t (0 : Fin 3) = win0_9.index t (0 : Fin 3) ∧ win0_5.index t (1 : Fin 3) = 0 ∧ win0_5.index t (2 : Fin 3) = 0 :=
  (by decide +kernel : ∀ t : Fin grid0.N, _)

/-- Operand 6's block is the whole slab of the output block's atom type. -/
theorem idx_slab6 : ∀ t : Fin cfg0.N,
    win0_6.index t (0 : Fin 3) = win0_9.index t (0 : Fin 3) ∧ win0_6.index t (1 : Fin 3) = 0 ∧ win0_6.index t (2 : Fin 3) = 0 :=
  (by decide +kernel : ∀ t : Fin grid0.N, _)

/-- Operand 7's block is the whole slab of the output block's atom type. -/
theorem idx_slab7 : ∀ t : Fin cfg0.N,
    win0_7.index t (0 : Fin 3) = win0_9.index t (0 : Fin 3) ∧ win0_7.index t (1 : Fin 3) = 0 ∧ win0_7.index t (2 : Fin 3) = 0 :=
  (by decide +kernel : ∀ t : Fin grid0.N, _)

/-- Operand 8's block is the whole slab of the output block's atom type. -/
theorem idx_slab8 : ∀ t : Fin cfg0.N,
    win0_8.index t (0 : Fin 3) = win0_9.index t (0 : Fin 3) ∧ win0_8.index t (1 : Fin 3) = 0 ∧ win0_8.index t (2 : Fin 3) = 0 :=
  (by decide +kernel : ∀ t : Fin grid0.N, _)

/-- Entry (0, r, f) of the feature block at point t is the feature array's entry at the output block's type and atom
    (block index × block size + the coordinate inside the block, axis by axis) and feature f. -/
theorem feat_apply (c : Dev nD) (t : Fin cfg0.N) (r : Fin 2048) (f : Fin 128) :
    iblk m c 0 t (ix3 0 r f) = V m c main_arg0 (ix3 ((((cfg0.win 9).blk t).view.emb (ix3 0 r 0)) 0) ((((cfg0.win 9).blk t).view.emb (ix3 0 r 0)) 1) f) := by
  obtain ⟨e0, e1, e2⟩ := idx_feat t
  show V m c main_arg0 (((cfg0.win 0).blk t).view.emb (ix3 0 r f)) = _
  refine congrArg (V m c main_arg0) ?_
  funext ax; apply Fin.ext
  match ax with
  | ⟨0, _⟩ => show win0_0.index t (0 : Fin 3) * 1 + 1 * (0 : ℕ) = win0_9.index t (0 : Fin 3) * 1 + 1 * (0 : ℕ); omega
  | ⟨1, _⟩ => show win0_0.index t (1 : Fin 3) * 2048 + 1 * r.val = win0_9.index t (1 : Fin 3) * 2048 + 1 * r.val; omega
  | ⟨2, _⟩ => show win0_0.index t (2 : Fin 3) * 128 + 1 * f.val = f.val; omega

/-- Entry (0, f, j) of the first layer's weight block is the array's entry (type, f, j) at the output block's type. -/
theorem slab1_apply (c : Dev nD) (t : Fin cfg0.N) (r : Fin 2048) (f : Fin 128) (j : Fin 512) :
    iblk m c 1 t (ix3 0 f j) = V m c main_v2 (ix3 ((((cfg0.win 9).blk t).view.emb (ix3 0 r 0)) 0) f j) := by
  obtain ⟨e0, e1, e2⟩ := idx_slab1 t
  show V m c main_v2 (((cfg0.win 1).blk t).view.emb (ix3 0 f j)) = _
  refine congrArg (V m c main_v2) ?_
  funext ax; apply Fin.ext
  match ax with
  | ⟨0, _⟩ => show win0_1.index t (0 : Fin 3) * 1 + 1 * (0 : ℕ) = win0_9.index t (0 : Fin 3) * 1 + 1 * (0 : ℕ); omega
  | ⟨1, _⟩ => show win0_1.index t (1 : Fin 3) * 128 + 1 * f.val = f.val; omega
  | ⟨2, _⟩ => show win0_1.index t (2 : Fin 3) * 512 + 1 * j.val = j.val; omega

/-- Entry (0, z, j) of the first layer's bias block is the array's entry (type, z, j) at the output block's type. -/
theorem slab2_apply (c : Dev nD) (t : Fin cfg0.N) (r : Fin 2048) (z : Fin 1) (j : Fin 512) :
    iblk m c 2 t (ix3 0 z j) = V m c main_v4 (ix3 ((((cfg0.win 9).blk t).view.emb (ix3 0 r 0)) 0) z j) := by
  obtain ⟨e0, e1, e2⟩ := idx_slab2 t
  show V m c main_v4 (((cfg0.win 2).blk t).view.emb (ix3 0 z j)) = _
  refine congrArg (V m c main_v4) ?_
  funext ax; apply Fin.ext
  match ax with
  | ⟨0, _⟩ => show win0_2.index t (0 : Fin 3) * 1 + 1 * (0 : ℕ) = win0_9.index t (0 : Fin 3) * 1 + 1 * (0 : ℕ); omega
  | ⟨1, _⟩ => show win0_2.index t (1 : Fin 3) * 1 + 1 * z.val = z.val; omega
  | ⟨2, _⟩ => show win0_2.index t (2 : Fin 3) * 512 + 1 * j.val = j.val; omega

/-- Entry (0, a, j) of the second layer's weight block is the array's entry (type, a, j) at the output block's type. -/
theorem slab3_apply (c : Dev nD) (t : Fin cfg0.N) (r : Fin 2048) (a : Fin 512) (j : Fin 256) :
    iblk m c 3 t (ix3 0 a j) = V m c main_v8 (ix3 ((((cfg0.win 9).blk t).view.emb (ix3 0 r 0)) 0) a j) := by
  obtain ⟨e0, e1, e2⟩ := idx_slab3 t
  show V m c main_v8 (((cfg0.win 3).blk t).view.emb (ix3 0 a j)) = _
  refine congrArg (V m c main_v8) ?_
  funext ax; apply Fin.ext
  match ax with
  | ⟨0, _⟩ => show win0_3.index t (0 : Fin 3) * 1 + 1 * (0 : ℕ) = win0_9.index t (0 : Fin 3) * 1 + 1 * (0 : ℕ); omega
  | ⟨1, _⟩ => show win0_3.index t (1 : Fin 3) * 512 + 1 * a.val = a.val; omega
  | ⟨2, _⟩ => show win0_3.index t (2 : Fin 3) * 256 + 1 * j.val = j.val; omega

/-- Entry (0, z, j) of the second layer's bias block is the array's entry (type, z, j) at the output block's type. -/
theorem slab4_apply (c : Dev nD) (t : Fin cfg0.N) (r : Fin 2048) (z : Fin 1) (j : Fin 256) :
    iblk m c 4 t (ix3 0 z j) = V m c main_v10 (ix3 ((((cfg0.win 9).blk t).view.emb (ix3 0 r 0)) 0) z j) := by
  obtain ⟨e0, e1, e2⟩ := idx_slab4 t
  show V m c main_v10 (((cfg0.win 4).blk t).view.emb (ix3 0 z j)) = _
  refine congrArg (V m c main_v10) ?_
  funext ax; apply Fin.ext
  match ax with
  | ⟨0, _⟩ => show win0_4.index t (0 : Fin 3) * 1 + 1 * (0 : ℕ) = win0_9.index t (0 : Fin 3) * 1 + 1 * (0 : ℕ); omega
  | ⟨1, _⟩ => show win0_4.index t (1 : Fin 3) * 1 + 1 * z.val = z.val; omega
  | ⟨2, _⟩ => show win0_4.index t (2 : Fin 3) * 256 + 1 * j.val = j.val; omega

/-- Entry (0, a, k) of the third layer's weight block is the array's entry (type, a, k) at the output block's type. -/
theorem slab5_apply (c : Dev nD) (t : Fin cfg0.N) (r : Fin 2048) (a : Fin 256) (k : Fin 128) :
    iblk m c 5 t (ix3 0 a k) = V m c main_v14 (ix3 ((((cfg0.win 9).blk t).view.emb (ix3 0 r 0)) 0) a k) := by
  obtain ⟨e0, e1, e2⟩ := idx_slab5 t
  show V m c main_v14 (((cfg0.win 5).blk t).view.emb (ix3 0 a k)) = _
  refine congrArg (V m c main_v14) ?_
  funext ax; apply Fin.ext
  match ax with
  | ⟨0, _⟩ => show win0_5.index t (0 : Fin 3) * 1 + 1 * (0 : ℕ) = win0_9.index t (0 : Fin 3) * 1 + 1 * (0 : ℕ); omega
  | ⟨1, _⟩ => show win0_5.index t (1 : Fin 3) * 256 + 1 * a.val = a.val; omega
  | ⟨2, _⟩ => show win0_5.index t (2 : Fin 3) * 128 + 1 * k.val = k.val; omega

/-- Entry (0, z, k) of the third layer's bias block is the array's entry (type, z, k) at the output block's type. -/
theorem slab6_apply (c : Dev nD) (t : Fin cfg0.N) (r : Fin 2048) (z : Fin 1) (k : Fin 128) :
    iblk m c 6 t (ix3 0 z k) = V m c main_v16 (ix3 ((((cfg0.win 9).blk t).view.emb (ix3 0 r 0)) 0) z k) := by
  obtain ⟨e0, e1, e2⟩ := idx_slab6 t
  show V m c main_v16 (((cfg0.win 6).blk t).view.emb (ix3 0 z k)) = _
  refine congrArg (V m c main_v16) ?_
  funext ax; apply Fin.ext
  match ax with
  | ⟨0, _⟩ => show win0_6.index t (0 : Fin 3) * 1 + 1 * (0 : ℕ) = win0_9.index t (0 : Fin 3) * 1 + 1 * (0 : ℕ); omega
  | ⟨1, _⟩ => show win0_6.index t (1 : Fin 3) * 1 + 1 * z.val = z.val; omega
  | ⟨2, _⟩ => show win0_6.index t (2 : Fin 3) * 128 + 1 * k.val = k.val; omega

/-- Entry (0, k, z) of the output unit's weight block is the array's entry (type, k, z) at the output block's type. -/
theorem slab7_apply (c : Dev nD) (t : Fin cfg0.N) (r : Fin 2048) (k : Fin 128) (z : Fin 1) :
    iblk m c 7 t (ix3 0 k z) = V m c main_v19 (ix3 ((((cfg0.win 9).blk t).view.emb (ix3 0 r 0)) 0) k z) := by
  obtain ⟨e0, e1, e2⟩ := idx_slab7 t
  show V m c main_v19 (((cfg0.win 7).blk t).view.emb (ix3 0 k z)) = _
  refine congrArg (V m c main_v19) ?_
  funext ax; apply Fin.ext
  match ax with
  | ⟨0, _⟩ => show win0_7.index t (0 : Fin 3) * 1 + 1 * (0 : ℕ) = win0_9.index t (0 : Fin 3) * 1 + 1 * (0 : ℕ); omega
  | ⟨1, _⟩ => show win0_7.index t (1 : Fin 3) * 128 + 1 * k.val = k.val; omega
  | ⟨2, _⟩ => show win0_7.index t (2 : Fin 3) * 1 + 1 * z.val = z.val; omega

/-- Entry (0, z, z') of the output unit's bias block is the array's entry (type, z, z') at the output block's type. -/
theorem slab8_apply (c : Dev nD) (t : Fin cfg0.N) (r : Fin 2048) (z : Fin 1) (z' : Fin 1) :
    iblk m c 8 t (ix3 0 z z') = V m c main_v20 (ix3 ((((cfg0.win 9).blk t).view.emb (ix3 0 r 0)) 0) z z') := by
  obtain ⟨e0, e1, e2⟩ := idx_slab8 t
  show V m c main_v20 (((cfg0.win 8).blk t).view.emb (ix3 0 z z')) = _
  refine congrArg (V m c main_v20) ?_
  funext ax; apply Fin.ext
  match ax with
  | ⟨0, _⟩ => show win0_8.index t (0 : Fin 3) * 1 + 1 * (0 : ℕ) = win0_9.index t (0 : Fin 3) * 1 + 1 * (0 : ℕ); omega
  | ⟨1, _⟩ => show win0_8.index t (1 : Fin 3) * 1 + 1 * z.val = z.val; omega
  | ⟨2, _⟩ => show win0_8.index t (2 : Fin 3) * 1 + 1 * z'.val = z'.val; omega

/-- What point t writes back is block t of the energies: row r of the body's output block is the perceptron of row r of
    the feature block with the weight and bias slabs of the point's atom type, and those block entries are the operand
    arrays' entries that the energy at the output block's array index (type, atom, 0) reads. -/
theorem flushed_eq (c : Dev nD) (t : Fin cfg0.N) :
    (dats m 0 c).flushed 9 t = ((cfg0.win 9).blk t).view.read (Elt Ideal)
      (Cert.AtomNet.katomE (V m c main_arg0) (V m c main_v2) (V m c main_v4) (V m c main_v8) (V m c main_v10)
          (V m c main_v14) (V m c main_v16) (V m c main_v19) (V m c main_v20)) := by
  show (cfg0.win 9).cut (grid0.coords t) ((dats m 0 c).after 9 t) = _
  rw [after0_9]
  funext y
  obtain ⟨y0, r, y2, rfl⟩ : ∃ (y0 : Fin 1) (r : Fin 2048) (y2 : Fin 1), y = ix3 y0 r y2 := ⟨y 0, y 1, y 2, eq_ix3 y⟩
  obtain rfl : y0 = 0 := Subsingleton.elim _ _
  obtain rfl : y2 = 0 := Subsingleton.elim _ _
  show out0_9 (F := Ideal) (iblk m c 0 t) (iblk m c 1 t) (iblk m c 2 t) (iblk m c 3 t) (iblk m c 4 t) (iblk m c 5 t)
      (iblk m c 6 t) (iblk m c 7 t) (iblk m c 8 t) (ix3 0 r 0) = _
  refine (Cert.KernelIdeal.BodyValue.out_row (iblk m c 0 t) (iblk m c 1 t) (iblk m c 2 t) (iblk m c 3 t) (iblk m c 4 t)
    (iblk m c 5 t) (iblk m c 6 t) (iblk m c 7 t) (iblk m c 8 t) r).trans ?_
  show _ = Cert.AtomNet.katomE (V m c main_arg0) (V m c main_v2) (V m c main_v4) (V m c main_v8) (V m c main_v10)
      (V m c main_v14) (V m c main_v16) (V m c main_v19) (V m c main_v20) (((cfg0.win 9).blk t).view.emb (ix3 0 r 0))
  simp only [feat_apply m c t r, slab1_apply m c t r, slab2_apply m c t r, slab3_apply m c t r, slab4_apply m c t r,
    slab5_apply m c t r, slab6_apply m c t r, slab7_apply m c t r, slab8_apply m c t r]
  rfl

/-- An index of the output array is in point t's block iff each coordinate is in the block's range on its axis. -/
theorem mem_blk (t : Fin cfg0.N) (i : S4x131072x1.Idx) :
    i ∈ ((cfg0.win 9).blk t).view.set ↔ ∀ a : Fin 3, win0_9.index t a * S1x2048x1.size a ≤ (i a).val
      ∧ (i a).val < win0_9.index t a * S1x2048x1.size a + S1x2048x1.size a := by
  show i ∈ ((View.whole main_v21).slice (win0_9.rect t)).set ↔ _
  rw [View.set_slice_whole, Rect.mem_set_unit]
  exact Iff.rfl

/-- The output's blocks tile the array: the index (tt, n, 0) lies in the block of the point tt * 64 + n / 2048. -/
theorem cover (i : S4x131072x1.Idx) :
    ∃ t : Fin cfg0.N, (cfg0.win 9).flush t = true ∧ i ∈ ((cfg0.win 9).blk t).view.set := by
  have hi0 : (i 0).val < 4 := (i 0).isLt
  have hi1 : (i 1).val < 131072 := (i 1).isLt
  have hi2 : (i 2).val < 1 := (i 2).isLt
  have hN : (i 0).val * 64 + (i 1).val / 2048 < cfg0.N := by show _ < 256; omega
  obtain ⟨e90, e91, e92⟩ := idx_out ⟨(i 0).val * 64 + (i 1).val / 2048, hN⟩
  have q0 : win0_9.index ⟨(i 0).val * 64 + (i 1).val / 2048, hN⟩ (0 : Fin 3) = ((i 0).val * 64 + (i 1).val / 2048) / 64 := e90
  have q1 : win0_9.index ⟨(i 0).val * 64 + (i 1).val / 2048, hN⟩ (1 : Fin 3) = ((i 0).val * 64 + (i 1).val / 2048) % 64 := e91
  refine ⟨⟨(i 0).val * 64 + (i 1).val / 2048, hN⟩, flush0_9 _, ?_⟩
  rw [mem_blk]
  intro a
  match a with
  | ⟨0, _⟩ =>
    show win0_9.index ⟨(i 0).val * 64 + (i 1).val / 2048, hN⟩ (0 : Fin 3) * 1 ≤ (i 0).val
      ∧ (i 0).val < win0_9.index ⟨(i 0).val * 64 + (i 1).val / 2048, hN⟩ (0 : Fin 3) * 1 + 1
    omega
  | ⟨1, _⟩ =>
    show win0_9.index ⟨(i 0).val * 64 + (i 1).val / 2048, hN⟩ (1 : Fin 3) * 2048 ≤ (i 1).val
      ∧ (i 1).val < win0_9.index ⟨(i 0).val * 64 + (i 1).val / 2048, hN⟩ (1 : Fin 3) * 2048 + 2048
    omega
  | ⟨2, _⟩ =>
    show win0_9.index ⟨(i 0).val * 64 + (i 1).val / 2048, hN⟩ (2 : Fin 3) * 1 ≤ (i 2).val
      ∧ (i 2).val < win0_9.index ⟨(i 0).val * 64 + (i 1).val / 2048, hN⟩ (2 : Fin 3) * 1 + 1
    omega

/-- The output array after the region: the energies read off the nine operand arrays as the region finds them. -/
theorem region_array (c : Dev nD) :
    (dats m 0 c).arrAt 9 cfg0.N
      = Cert.AtomNet.katomE (V m c main_arg0) (V m c main_v2) (V m c main_v4) (V m c main_v8) (V m c main_v10)
          (V m c main_v14) (V m c main_v16) (V m c main_v19) (V m c main_v20) :=
  (dats m 0 c).arrAt_eq_of_cover 9
    (Cert.AtomNet.katomE (V m c main_arg0) (V m c main_v2) (V m c main_v4) (V m c main_v8) (V m c main_v10)
          (V m c main_v14) (V m c main_v16) (V m c main_v19) (V m c main_v20))
    (fun t _ => flushed_eq m c t) cover

end Cert.KernelIdeal.RegionValue

end
-- ==== Proof.KernelRun.lean ====
/-
  The idealized kernel program's run with its result named.

  After the region the program lays the atom energies [4, 131072, 1] out as one column of 524288 rows, flattens the
  molecule index of each atom the same way, counts an index below zero from the end (adds 16384 to it), and adds every
  energy into the entry of the molecule energies its index names. `tail` is that function of the molecule energies, the
  indices and the atom energies. The run ends with the result buffer at `tail` of the two arguments and of the region's
  output array, which is `katomE` of the operand arrays (Proof/RegionArray.lean), every argument unchanged.
-/
import proofs.«112957_j8675833938301_1_alg».proof.Proof.RegionArray
import Idealize.ShloMosaic.Lib.StableHlo.Run

noncomputable section

open Idealize.ShloMosaic Idealize.ShloMosaic.TcCoe Idealize.ShloMosaic.ValueIdx Idealize.SL.Sem Idealize.ShloMosaic.StableHlo

namespace Cert.KernelIdeal.RunValue

open Cert.KernelIdeal Cert.KernelIdeal.Gen

/-- The lines after the region as one function: `e` the molecule energies, `ind` the molecule index of each atom,
    `a` the atom energies. -/
def tail (e : FVec Ideal S16384x1 .f32) (ind : IVec S4x131072 32) (a : FVec Ideal S4x131072x1 .f32) : FVec Ideal S16384x1 .f32 :=
  Host.scatterAdd (F := Ideal) scatter_S16384x1_S524288x1_S524288x1_1_0_0_1 e
    (broadcastInDim S524288x1 ![0] bcast_S524288_S524288x1_0
      (select (cmpi .slt (shapeCast _ ind shapeCasts_S4x131072_S524288) (broadcastInDim S524288 ![] bcast_S_S524288 (constantI S_ 32 0#32)))
        (addi (shapeCast _ ind shapeCasts_S4x131072_S524288) (broadcastInDim S524288 ![] bcast_S_S524288 (constantI S_ 32 16384#32)))
        (shapeCast _ ind shapeCasts_S4x131072_S524288)))
    (shapeCast _ a shapeCasts_S4x131072x1_S524288x1)

/-- From ANY contents of the buffers, the lines after the region leave in the result buffer `tail` of what the molecule
    energies, the atom indices and the region's output buffer held. -/
theorem tail_after (W : Valuation τ sig (Elt Ideal)) :
    StableHlo.after (hostOps1 (F := Ideal)) W (Proc.devRef .tc main_v30)
      = tail (W (Proc.devRef .tc main_arg2)) (W (Proc.devRef .tc main_arg1)) (W (Proc.devRef .tc main_v21)) := by
  after_results
  rfl

variable (m : (ℓ : Loc nD τ sig) → Buf (Elt Ideal) ℓ) (ρ : Dev nD → PrngReg)

/-- What the lines after the region leave in the result buffer: `tail` of the two arguments they read, which no line
    before them writes, and of the output array as the region leaves it. -/
theorem result_eq (c : Dev nD) :
    Pipeline.afterTail₀ cfgs (dats m) 0 (V0 m) [hostOps1] c main_v30
      = tail (m ((c : Thread nD τ).loc main_arg2)) (m ((c : Thread nD τ).loc main_arg1)) ((dats m 0 c).arrAt 9 cfg0.N) := by
  unfold Pipeline.afterTail₀
  show StableHlo.after hostOps1 _ (Proc.devRef .tc main_v30) = _
  rw [tail_after]
  have h2 := (Pipeline.withArrays_of_ne (cfgs 0).spec c (V0 m c) (fun w => (dats m 0 c).arrAt w (cfgs 0).N) main_arg2
    (by exact (by decide : ∀ w, Pipeline.arrRef spec0 w ≠ main_arg2))).trans (V_main_arg2 m c)
  have h1 := (Pipeline.withArrays_of_ne (cfgs 0).spec c (V0 m c) (fun w => (dats m 0 c).arrAt w (cfgs 0).N) main_arg1
    (by exact (by decide : ∀ w, Pipeline.arrRef spec0 w ≠ main_arg1))).trans (V_main_arg1 m c)
  have h9 := Pipeline.withArrays_arr spec0 launch0.win.arr_inj c (V0 m c) (fun w => (dats m 0 c).arrAt w (cfgs 0).N) 9
  exact congr (congr (congrArg tail h2) h1) h9

/-- Every weakly fair execution of the idealized kernel program terminates with the result buffer at `tail` of the
    molecule energies, the atom indices and the atom energies `katomE` of the operand arrays, and every argument as it
    was: the frame run read at the result buffer and at the arguments. -/
theorem run :
    θ_run defs (onTc (τ := τ) (main (F := Ideal))) ⟨m, fun _ => 0, ρ⟩ (fun r => ∀ c : Dev nD,
      r.2.mem ((c.tc : Thread nD τ).loc main_v30)
        = tail (m ((c.tc : Thread nD τ).loc main_arg2)) (m ((c.tc : Thread nD τ).loc main_arg1))
            (Cert.AtomNet.katomE (V m c main_arg0) (V m c main_v2) (V m c main_v4) (V m c main_v8) (V m c main_v10)
              (V m c main_v14) (V m c main_v16) (V m c main_v19) (V m c main_v20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v30 (Pipeline.mem_restRefs_of main_v30 (by decide) (by decide))).trans
        ((result_eq m c).trans (congrArg (tail _ _) (Cert.KernelIdeal.RegionValue.region_array m c))),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.RunValue

end
-- ==== Proof.HostArrays.lean ====
import proofs.«112957_j8675833938301_1_alg».proof.Proof.Gen.KernelIdeal.Frame
import proofs.«112957_j8675833938301_1_alg».proof.Proof.AtomNet
import Idealize.ShloMosaic.Lib.KernelVsHost
import Idealize.ShloMosaic.Lib.ValueLayout
import Idealize.ShloMosaic.Lib.StableHlo.Run
import Idealize.ShloMosaic.Lib.Pipeline.Value

noncomputable section

open scoped BigOperators
open Idealize.ShloMosaic Idealize.ShloMosaic.TcCoe Idealize.ShloMosaic.ValueIdx Idealize.SL.Sem

namespace Cert.KernelIdeal.HostValue

open Cert.KernelIdeal Cert.KernelIdeal.Gen

variable (m : (ℓ : Loc nD τ sig) → Buf (Elt Ideal) ℓ)

/-! ## Reading the host operations at an index -/

section ReadAt
variable {α : Type}

/-- A rank-3 pad that only extends the LAST axis at its high end, read where the last coordinate is inside the
    operand: the operand at the same coordinates. -/
theorem pad3_last_in {a b n n' p : ℕ} (x : (⟨3, ![a, b, n]⟩ : Shape).Idx → α) {u : Shape} (v : u.Idx → α)
    (h : (⟨3, ![a, b, n]⟩ : Shape).Pads ![0, 0, 0] ![0, 0, p] ![0, 0, 0] ⟨3, ![a, b, n']⟩) (hu : 0 < u.numel)
    (t : Fin a) (f : Fin b) (j : Fin n') (hj : j.val < n) :
    pad ⟨3, ![a, b, n']⟩ ![0, 0, 0] ![0, 0, p] ![0, 0, 0] x v h hu (ix3 t f j) = x (ix3 t f ⟨j.val, hj⟩) :=
  pad_apply_of_inside _ _ _ x v h hu _ _ fun c => match c with
    | ⟨0, _⟩ => by show t.val = 0 + t.val * (0 + 1); omega
    | ⟨1, _⟩ => by show f.val = 0 + f.val * (0 + 1); omega
    | ⟨2, _⟩ => by show j.val = 0 + j.val * (0 + 1); omega

/-- The same pad read where the last coordinate is beyond the operand: the padding value. -/
theorem pad3_last_out {a b n n' p : ℕ} (x : (⟨3, ![a, b, n]⟩ : Shape).Idx → α) {u : Shape} (v : u.Idx → α)
    (h : (⟨3, ![a, b, n]⟩ : Shape).Pads ![0, 0, 0] ![0, 0, p] ![0, 0, 0] ⟨3, ![a, b, n']⟩) (hu : 0 < u.numel)
    (t : Fin a) (f : Fin b) (j : Fin n') (hj : ¬ j.val < n) :
    pad ⟨3, ![a, b, n']⟩ ![0, 0, 0] ![0, 0, p] ![0, 0, 0] x v h hu (ix3 t f j) = v (Shape.Idx.first hu) :=
  pad_apply_of_not_inside _ _ _ x v h hu _ (⟨2, by decide⟩ : Fin 3) fun hin => hj (by
    have h3 : (j.val - 0) / (0 + 1) < n := hin.2.2
    rwa [Nat.sub_zero, Nat.zero_add, Nat.div_one] at h3)

/-- A rank-3 pad that only extends the MIDDLE axis at its high end, read where the middle coordinate is inside the
    operand. -/
theorem pad3_mid_in {a n n' b p : ℕ} (x : (⟨3, ![a, n, b]⟩ : Shape).Idx → α) {u : Shape} (v : u.Idx → α)
    (h : (⟨3, ![a, n, b]⟩ : Shape).Pads ![0, 0, 0] ![0, p, 0] ![0, 0, 0] ⟨3, ![a, n', b]⟩) (hu : 0 < u.numel)
    (t : Fin a) (j : Fin n') (f : Fin b) (hj : j.val < n) :
    pad ⟨3, ![a, n', b]⟩ ![0, 0, 0] ![0, p, 0] ![0, 0, 0] x v h hu (ix3 t j f) = x (ix3 t ⟨j.val, hj⟩ f) :=
  pad_apply_of_inside _ _ _ x v h hu _ _ fun c => match c with
    | ⟨0, _⟩ => by show t.val = 0 + t.val * (0 + 1); omega
    | ⟨1, _⟩ => by show j.val = 0 + j.val * (0 + 1); omega
    | ⟨2, _⟩ => by show f.val = 0 + f.val * (0 + 1); omega

/-- The same pad read where the middle coordinate is beyond the operand: the padding value. -/
theorem pad3_mid_out {a n n' b p : ℕ} (x : (⟨3, ![a, n, b]⟩ : Shape).Idx → α) {u : Shape} (v : u.Idx → α)
    (h : (⟨3, ![a, n, b]⟩ : Shape).Pads ![0, 0, 0] ![0, p, 0] ![0, 0, 0] ⟨3, ![a, n', b]⟩) (hu : 0 < u.numel)
    (t : Fin a) (j : Fin n') (f : Fin b) (hj : ¬ j.val < n) :
    pad ⟨3, ![a, n', b]⟩ ![0, 0, 0] ![0, p, 0] ![0, 0, 0] x v h hu (ix3 t j f) = v (Shape.Idx.first hu) :=
  pad_apply_of_not_inside _ _ _ x v h hu _ (⟨1, by decide⟩ : Fin 3) fun hin => hj (by
    have h3 : (j.val - 0) / (0 + 1) < n := hin.2.2
    rwa [Nat.sub_zero, Nat.zero_add, Nat.div_one] at h3)

/-- An `[a, n]` array cast to `[a, 1, n]` reads, at `(t, 0, j)`, the operand at `(t, j)`: the two row-major positions
    are `t * n + j`. -/
theorem shapeCast_an_a1n_apply {a n : ℕ} (x : (⟨2, ![a, n]⟩ : Shape).Idx → α)
    (h : (⟨2, ![a, n]⟩ : Shape).ShapeCasts ⟨3, ![a, 1, n]⟩) (t : Fin a) (j : Fin n) :
    shapeCast ⟨3, ![a, 1, n]⟩ x h (ix3 t (0 : Fin 1) j) = x (ix2 t j) :=
  shapeCast_apply x h _ _ (by
    rw [Shape.rowMajor_val_three, Shape.rowMajor_val_two]
    show t.val * n + j.val = (t.val * 1 + 0) * n + j.val
    rw [Nat.mul_one, Nat.add_zero])

end ReadAt

/-- The padding value of every host pad here: the integer zero converted is the real zero. -/
theorem padval_eq_zero (i : S_.Idx) : (sitofp .f32 (constantI S_ 32 0#32) : FVec Ideal S_ .f32) i = 0 :=
  sitofp_zero

/-! ## Each operand array as the host operations' term of its argument

@main's lines before the region, run in order from the launch contents, leave in each operand's buffer the
composition of that operand's own lines: every other line writes another buffer. -/

/-- The first layer's weights: transposed, the unit axis extended from 500 to 512, the format changed. -/
theorem term_v2 (c : Dev nD) :
    (V m c main_v2 : S4x128x512.Idx → EReal)
      = (truncf .bf16 (pad S4x128x512 ![0, 0, 0] ![0, 0, 12] ![0, 0, 0]
          (transpose S4x128x500 [0, 2, 1] (m ((c : Thread nD τ).loc main_arg3)) transposes_S4x500x128_S4x128x500_0_2_1)
          (sitofp .f32 (constantI S_ 32 0#32)) pads_S4x128x500_S4x128x512_000_000_0120 h_S_) bitsLt_bf16_f32 : FVec Ideal S4x128x512 .bf16) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, Gen.hostOps0_15, Gen.hostOps0_16, Gen.hostOps0_17, Gen.hostOps0_18, List.flatten_cons, List.flatten_nil,
    List.append_nil, List.cons_append, List.nil_append]
  after_results
  rfl

/-- The first layer's biases: given a unit axis, the unit axis extended from 500 to 512. -/
theorem term_v4 (c : Dev nD) :
    (V m c main_v4 : S4x1x512.Idx → EReal)
      = (pad S4x1x512 ![0, 0, 0] ![0, 0, 12] ![0, 0, 0]
          (shapeCast S4x1x500 (m ((c : Thread nD τ).loc main_arg4)) shapeCasts_S4x500_S4x1x500)
          (sitofp .f32 (constantI S_ 32 0#32)) pads_S4x1x500_S4x1x512_000_000_0120 h_S_ : FVec Ideal S4x1x512 .f32) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, Gen.hostOps0_15, Gen.hostOps0_16, Gen.hostOps0_17, Gen.hostOps0_18, List.flatten_cons, List.flatten_nil,
    List.append_nil, List.cons_append, List.nil_append]
  after_results
  rfl

/-- The second layer's weights: transposed, the input axis extended from 500 to 512, then the unit axis from 200 to
    256, the format changed. -/
theorem term_v8 (c : Dev nD) :
    (V m c main_v8 : S4x512x256.Idx → EReal)
      = (truncf .bf16 (pad S4x512x256 ![0, 0, 0] ![0, 0, 56] ![0, 0, 0]
          (pad S4x512x200 ![0, 0, 0] ![0, 12, 0] ![0, 0, 0]
            (transpose S4x500x200 [0, 2, 1] (m ((c : Thread nD τ).loc main_arg5)) transposes_S4x200x500_S4x500x200_0_2_1)
            (sitofp .f32 (constantI S_ 32 0#32)) pads_S4x500x200_S4x512x200_000_0120_000 h_S_)
          (sitofp .f32 (constantI S_ 32 0#32)) pads_S4x512x200_S4x512x256_000_000_0560 h_S_) bitsLt_bf16_f32 : FVec Ideal S4x512x256 .bf16) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, Gen.hostOps0_15, Gen.hostOps0_16, Gen.hostOps0_17, Gen.hostOps0_18, List.flatten_cons, List.flatten_nil,
    List.append_nil, List.cons_append, List.nil_append]
  after_results
  rfl

/-- The second layer's biases: given a unit axis, the unit axis extended from 200 to 256. -/
theorem term_v10 (c : Dev nD) :
    (V m c main_v10 : S4x1x256.Idx → EReal)
      = (pad S4x1x256 ![0, 0, 0] ![0, 0, 56] ![0, 0, 0]
          (shapeCast S4x1x200 (m ((c : Thread nD τ).loc main_arg6)) shapeCasts_S4x200_S4x1x200)
          (sitofp .f32 (constantI S_ 32 0#32)) pads_S4x1x200_S4x1x256_000_000_0560 h_S_ : FVec Ideal S4x1x256 .f32) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, Gen.hostOps0_15, Gen.hostOps0_16, Gen.hostOps0_17, Gen.hostOps0_18, List.flatten_cons, List.flatten_nil,
    List.append_nil, List.cons_append, List.nil_append]
  after_results
  rfl

/-- The third layer's weights: transposed, the input axis extended from 200 to 256, then the unit axis from 100 to
    128, the format changed. -/
theorem term_v14 (c : Dev nD) :
    (V m c main_v14 : S4x256x128.Idx → EReal)
      = (truncf .bf16 (pad S4x256x128 ![0, 0, 0] ![0, 0, 28] ![0, 0, 0]
          (pad S4x256x100 ![0, 0, 0] ![0, 56, 0] ![0, 0, 0]
            (transpose S4x200x100 [0, 2, 1] (m ((c : Thread nD τ).loc main_arg7)) transposes_S4x100x200_S4x200x100_0_2_1)
            (sitofp .f32 (constantI S_ 32 0#32)) pads_S4x200x100_S4x256x100_000_0560_000 h_S_)
          (sitofp .f32 (constantI S_ 32 0#32)) pads_S4x256x100_S4x256x128_000_000_0280 h_S_) bitsLt_bf16_f32 : FVec Ideal S4x256x128 .bf16) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, Gen.hostOps0_15, Gen.hostOps0_16, Gen.hostOps0_17, Gen.hostOps0_18, List.flatten_cons, List.flatten_nil,
    List.append_nil, List.cons_append, List.nil_append]
  after_results
  rfl

/-- The third layer's biases: given a unit axis, the unit axis extended from 100 to 128. -/
theorem term_v16 (c : Dev nD) :
    (V m c main_v16 : S4x1x128.Idx → EReal)
      = (pad S4x1x128 ![0, 0, 0] ![0, 0, 28] ![0, 0, 0]
          (shapeCast S4x1x100 (m ((c : Thread nD τ).loc main_arg8)) shapeCasts_S4x100_S4x1x100)
          (sitofp .f32 (constantI S_ 32 0#32)) pads_S4x1x100_S4x1x128_000_000_0280 h_S_ : FVec Ideal S4x1x128 .f32) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, Gen.hostOps0_15, Gen.hostOps0_16, Gen.hostOps0_17, Gen.hostOps0_18, List.flatten_cons, List.flatten_nil,
    List.append_nil, List.cons_append, List.nil_append]
  after_results
  rfl

/-- The output unit's weights: transposed, the input axis extended from 100 to 128, the format changed. -/
theorem term_v19 (c : Dev nD) :
    (V m c main_v19 : S4x128x1.Idx → EReal)
      = (truncf .bf16 (pad S4x128x1 ![0, 0, 0] ![0, 28, 0] ![0, 0, 0]
          (transpose S4x100x1 [0, 2, 1] (m ((c : Thread nD τ).loc main_arg9)) transposes_S4x1x100_S4x100x1_0_2_1)
          (sitofp .f32 (constantI S_ 32 0#32)) pads_S4x100x1_S4x128x1_000_0280_000 h_S_) bitsLt_bf16_f32 : FVec Ideal S4x128x1 .bf16) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, Gen.hostOps0_15, Gen.hostOps0_16, Gen.hostOps0_17, Gen.hostOps0_18, List.flatten_cons, List.flatten_nil,
    List.append_nil, List.cons_append, List.nil_append]
  after_results
  rfl

/-- The output unit's bias: given a unit axis. -/
theorem term_v20 (c : Dev nD) :
    (V m c main_v20 : S4x1x1.Idx → EReal)
      = (shapeCast S4x1x1 (m ((c : Thread nD τ).loc main_arg10)) shapeCasts_S4x1_S4x1x1 : FVec Ideal S4x1x1 .f32) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, Gen.hostOps0_15, Gen.hostOps0_16, Gen.hostOps0_17, Gen.hostOps0_18, List.flatten_cons, List.flatten_nil,
    List.append_nil, List.cons_append, List.nil_append]
  after_results
  rfl

/-- The eight operand arrays the region is launched on, as @main's lines before it leave them, are the weight and bias
    arguments transposed and zero-extended. -/
theorem padded (c : Dev nD) :
    Cert.AtomNet.IsPadded (m ((c : Thread nD τ).loc main_arg3)) (m ((c : Thread nD τ).loc main_arg4))
      (m ((c : Thread nD τ).loc main_arg5)) (m ((c : Thread nD τ).loc main_arg6))
      (m ((c : Thread nD τ).loc main_arg7)) (m ((c : Thread nD τ).loc main_arg8))
      (m ((c : Thread nD τ).loc main_arg9)) (m ((c : Thread nD τ).loc main_arg10))
      (V m c main_v2) (V m c main_v4) (V m c main_v8) (V m c main_v10) (V m c main_v14) (V m c main_v16)
      (V m c main_v19) (V m c main_v20) := by
  refine ⟨fun t f j => ?_, fun t j => ?_, fun t a j => ?_, fun t j => ?_, fun t a k => ?_, fun t k => ?_, fun t k => ?_,
    fun t => ?_⟩
  -- entry (t, f, j): inside the 500 units the pad keeps the transposed weight, beyond them it holds the zero
  · refine (congrFun (term_v2 m c) (ix3 t f j)).trans ?_
    rw [truncf_apply]
    by_cases hj : j.val < 500
    · rw [dif_pos hj]
      exact (pad3_last_in _ _ _ _ t f j hj).trans (transpose_ix3_021_apply _ _ t f ⟨j.val, hj⟩)
    · rw [dif_neg hj]
      exact (pad3_last_out _ _ _ _ t f j hj).trans (padval_eq_zero _)
  -- entry (t, 0, j): the bias of unit j inside the 500 units, the zero beyond
  · refine (congrFun (term_v4 m c) (ix3 t 0 j)).trans ?_
    by_cases hj : j.val < 500
    · rw [dif_pos hj]
      exact (pad3_last_in _ _ _ _ t 0 j hj).trans (shapeCast_an_a1n_apply _ _ t ⟨j.val, hj⟩)
    · rw [dif_neg hj]
      exact (pad3_last_out _ _ _ _ t 0 j hj).trans (padval_eq_zero _)
  -- entry (t, a, j): the outer pad extends the units, the inner one the inputs; both inside, the transposed weight
  · refine (congrFun (term_v8 m c) (ix3 t a j)).trans ?_
    rw [truncf_apply]
    by_cases hj : j.val < 200
    · by_cases ha : a.val < 500
      · rw [dif_pos ⟨hj, ha⟩]
        exact ((pad3_last_in _ _ _ _ t a j hj).trans (pad3_mid_in _ _ _ _ t a ⟨j.val, hj⟩ ha)).trans
          (transpose_ix3_021_apply _ _ t ⟨a.val, ha⟩ ⟨j.val, hj⟩)
      · rw [dif_neg fun h => ha h.2]
        exact ((pad3_last_in _ _ _ _ t a j hj).trans (pad3_mid_out _ _ _ _ t a ⟨j.val, hj⟩ ha)).trans (padval_eq_zero _)
    · rw [dif_neg fun h => hj h.1]
      exact (pad3_last_out _ _ _ _ t a j hj).trans (padval_eq_zero _)
  -- entry (t, 0, j): the bias of unit j inside the 200 units, the zero beyond
  · refine (congrFun (term_v10 m c) (ix3 t 0 j)).trans ?_
    by_cases hj : j.val < 200
    · rw [dif_pos hj]
      exact (pad3_last_in _ _ _ _ t 0 j hj).trans (shapeCast_an_a1n_apply _ _ t ⟨j.val, hj⟩)
    · rw [dif_neg hj]
      exact (pad3_last_out _ _ _ _ t 0 j hj).trans (padval_eq_zero _)
  -- entry (t, a, k): as for the second layer, with 100 units over 200 inputs
  · refine (congrFun (term_v14 m c) (ix3 t a k)).trans ?_
    rw [truncf_apply]
    by_cases hk : k.val < 100
    · by_cases ha : a.val < 200
      · rw [dif_pos ⟨hk, ha⟩]
        exact ((pad3_last_in _ _ _ _ t a k hk).trans (pad3_mid_in _ _ _ _ t a ⟨k.val, hk⟩ ha)).trans
          (transpose_ix3_021_apply _ _ t ⟨a.val, ha⟩ ⟨k.val, hk⟩)
      · rw [dif_neg fun h => ha h.2]
        exact ((pad3_last_in _ _ _ _ t a k hk).trans (pad3_mid_out _ _ _ _ t a ⟨k.val, hk⟩ ha)).trans (padval_eq_zero _)
    · rw [dif_neg fun h => hk h.1]
      exact (pad3_last_out _ _ _ _ t a k hk).trans (padval_eq_zero _)
  -- entry (t, 0, k): the bias of unit k inside the 100 units, the zero beyond
  · refine (congrFun (term_v16 m c) (ix3 t 0 k)).trans ?_
    by_cases hk : k.val < 100
    · rw [dif_pos hk]
      exact (pad3_last_in _ _ _ _ t 0 k hk).trans (shapeCast_an_a1n_apply _ _ t ⟨k.val, hk⟩)
    · rw [dif_neg hk]
      exact (pad3_last_out _ _ _ _ t 0 k hk).trans (padval_eq_zero _)
  -- entry (t, k, 0): the pad extends the inputs of the output unit from 100 to 128
  · refine (congrFun (term_v19 m c) (ix3 t k 0)).trans ?_
    rw [truncf_apply]
    by_cases hk : k.val < 100
    · rw [dif_pos hk]
      exact (pad3_mid_in _ _ _ _ t k 0 hk).trans (transpose_ix3_021_apply _ _ t ⟨k.val, hk⟩ 0)
    · rw [dif_neg hk]
      exact (pad3_mid_out _ _ _ _ t k 0 hk).trans (padval_eq_zero _)
  -- entry (t, 0, 0): the reshape keeps the row-major position
  · exact (congrFun (term_v20 m c) (ix3 t 0 0)).trans (shapeCast_an_a1n_apply _ _ t 0)

end Cert.KernelIdeal.HostValue

end
-- ==== Proof.PadAlgebra.lean ====
import proofs.«112957_j8675833938301_1_alg».proof.Proof.AtomNet

noncomputable section

open scoped BigOperators
open Idealize.ShloMosaic Idealize.ShloMosaic.TcCoe Idealize.ShloMosaic.ValueIdx Idealize.SL.Sem

namespace Cert.AtomNet

/-- A sum over `Fin m` whose term `i` is `g i` below `n` and zero from `n` on is the sum of `g` over `Fin n`:
    split `Fin (n + k)` into its first `n` and last `k` indices; the last `k` terms are zero. -/
theorem sum_dite_pad {n m : ℕ} (hn : n ≤ m) (g : Fin n → EReal) :
    (∑ i : Fin m, (if h : i.val < n then g ⟨i.val, h⟩ else 0)) = ∑ i : Fin n, g i := by
  obtain ⟨k, rfl⟩ := Nat.exists_eq_add_of_le hn
  rw [Fin.sum_univ_add]
  have h1 : ∀ i : Fin n,
      (if h : (Fin.castAdd k i).val < n then g ⟨(Fin.castAdd k i).val, h⟩ else 0) = g i := by
    intro i
    rw [dif_pos (by simp)]
    rfl
  have h2 : ∀ i : Fin k,
      (if h : (Fin.natAdd n i).val < n then g ⟨(Fin.natAdd n i).val, h⟩ else 0) = 0 := by
    intro i
    rw [dif_neg (by simp)]
  simp only [h1, h2, Finset.sum_const_zero, add_zero]

/-- An affine unit whose weights and bias are all zero holds zero, whatever its inputs. -/
theorem affine_zero {n : ℕ} (u : Fin n → EReal) : affine u (fun _ => 0) 0 = 0 := by
  unfold affine
  simp only [mul_zero, Finset.sum_const_zero, add_zero]

/-- An affine unit on zero-extended inputs with zero-extended weights is the affine unit on the original ones:
    every term from the original width on is `0 * 0`, and the padded sum drops them. -/
theorem affine_pad {n m : ℕ} (hn : n ≤ m) (u : Fin n → EReal) (u' : Fin m → EReal)
    (hu : ∀ a : Fin m, u' a = if h : a.val < n then u ⟨a.val, h⟩ else 0)
    (w : Fin n → EReal) (w' : Fin m → EReal)
    (hw : ∀ a : Fin m, w' a = if h : a.val < n then w ⟨a.val, h⟩ else 0) (b : EReal) :
    affine u' w' b = affine u w b := by
  unfold affine
  congr 1
  rw [← sum_dite_pad hn (fun a => u a * w a)]
  refine Finset.sum_congr rfl (fun a _ => ?_)
  rw [hu a, hw a]
  by_cases h : a.val < n
  · rw [dif_pos h, dif_pos h, dif_pos h]
  · rw [dif_neg h, dif_neg h, dif_neg h, mul_zero]

/-- A hidden unit of the first layer: inside the original width it is the original unit; beyond it the weights and
    the bias are zero, so it holds `max 0 0 = 0`. -/
theorem first_pad {n0 n1 m1 : ℕ} (h0 : Fin n0 → EReal)
    (w : Fin n1 → Fin n0 → EReal) (c : Fin n1 → EReal)
    (v : Fin m1 → Fin n0 → EReal) (d : Fin m1 → EReal)
    (hv : ∀ (j : Fin m1) (f : Fin n0), v j f = if h : j.val < n1 then w ⟨j.val, h⟩ f else 0)
    (hd : ∀ j : Fin m1, d j = if h : j.val < n1 then c ⟨j.val, h⟩ else 0) (j : Fin m1) :
    max (affine h0 (v j) (d j)) 0
      = if h : j.val < n1 then max (affine h0 (w ⟨j.val, h⟩) (c ⟨j.val, h⟩)) 0 else 0 := by
  by_cases h : j.val < n1
  · have e1 : v j = w ⟨j.val, h⟩ := funext (fun f => by rw [hv j f, dif_pos h])
    have e2 : d j = c ⟨j.val, h⟩ := by rw [hd j, dif_pos h]
    rw [dif_pos h, e1, e2]
  · have e1 : v j = fun _ => 0 := funext (fun f => by rw [hv j f, dif_neg h])
    have e2 : d j = 0 := by rw [hd j, dif_neg h]
    rw [dif_neg h, e1, e2, affine_zero, max_self]

/-- A hidden unit of a later layer, fed by a zero-extended layer: inside the original width its weights are the
    original unit's weights zero-extended, so it is the original unit; beyond it everything is zero and it holds
    `max 0 0 = 0`. -/
theorem hidden_pad {n m n' m' : ℕ} (hn : n ≤ m) (u : Fin n → EReal) (u' : Fin m → EReal)
    (hu : ∀ a : Fin m, u' a = if h : a.val < n then u ⟨a.val, h⟩ else 0)
    (w : Fin n' → Fin n → EReal) (c : Fin n' → EReal)
    (v : Fin m' → Fin m → EReal) (d : Fin m' → EReal)
    (hv : ∀ (j : Fin m') (a : Fin m),
      v j a = if h : j.val < n' ∧ a.val < n then w ⟨j.val, h.1⟩ ⟨a.val, h.2⟩ else 0)
    (hd : ∀ j : Fin m', d j = if h : j.val < n' then c ⟨j.val, h⟩ else 0) (j : Fin m') :
    max (affine u' (v j) (d j)) 0
      = if h : j.val < n' then max (affine u (w ⟨j.val, h⟩) (c ⟨j.val, h⟩)) 0 else 0 := by
  by_cases h : j.val < n'
  · have e1 : ∀ a : Fin m, v j a = if ha : a.val < n then w ⟨j.val, h⟩ ⟨a.val, ha⟩ else 0 := by
      intro a
      rw [hv j a]
      by_cases ha : a.val < n
      · rw [dif_pos ⟨h, ha⟩, dif_pos ha]
      · rw [dif_neg (fun hh => ha hh.2), dif_neg ha]
    have e2 : d j = c ⟨j.val, h⟩ := by rw [hd j, dif_pos h]
    rw [dif_pos h, e2, affine_pad hn u u' hu (w ⟨j.val, h⟩) (v j) e1]
  · have e1 : v j = fun _ => 0 := funext (fun a => by rw [hv j a, dif_neg (fun hh => h hh.1)])
    have e2 : d j = 0 := by rw [hd j, dif_neg h]
    rw [dif_neg h, e1, e2, affine_zero, max_self]

/-- The perceptron with zero-extended hidden layers is the perceptron: layer by layer the padded hidden layer is the
    original one zero-extended, and the output unit reads it through zero-extended weights. -/
theorem net_pad {n0 n1 n2 n3 m1 m2 m3 : ℕ} (h1 : n1 ≤ m1) (h2 : n2 ≤ m2) (h3 : n3 ≤ m3)
    (h0 : Fin n0 → EReal)
    (w1 : Fin n1 → Fin n0 → EReal) (c1 : Fin n1 → EReal)
    (w2 : Fin n2 → Fin n1 → EReal) (c2 : Fin n2 → EReal)
    (w3 : Fin n3 → Fin n2 → EReal) (c3 : Fin n3 → EReal)
    (w4 : Fin n3 → EReal) (c4 : EReal)
    (v1 : Fin m1 → Fin n0 → EReal) (d1 : Fin m1 → EReal)
    (v2 : Fin m2 → Fin m1 → EReal) (d2 : Fin m2 → EReal)
    (v3 : Fin m3 → Fin m2 → EReal) (d3 : Fin m3 → EReal)
    (v4 : Fin m3 → EReal)
    (hv1 : ∀ (j : Fin m1) (f : Fin n0), v1 j f = if h : j.val < n1 then w1 ⟨j.val, h⟩ f else 0)
    (hd1 : ∀ j : Fin m1, d1 j = if h : j.val < n1 then c1 ⟨j.val, h⟩ else 0)
    (hv2 : ∀ (j : Fin m2) (a : Fin m1),
      v2 j a = if h : j.val < n2 ∧ a.val < n1 then w2 ⟨j.val, h.1⟩ ⟨a.val, h.2⟩ else 0)
    (hd2 : ∀ j : Fin m2, d2 j = if h : j.val < n2 then c2 ⟨j.val, h⟩ else 0)
    (hv3 : ∀ (k : Fin m3) (a : Fin m2),
      v3 k a = if h : k.val < n3 ∧ a.val < n2 then w3 ⟨k.val, h.1⟩ ⟨a.val, h.2⟩ else 0)
    (hd3 : ∀ k : Fin m3, d3 k = if h : k.val < n3 then c3 ⟨k.val, h⟩ else 0)
    (hv4 : ∀ k : Fin m3, v4 k = if h : k.val < n3 then w4 ⟨k.val, h⟩ else 0) :
    net h0 v1 d1 v2 d2 v3 d3 v4 c4 = net h0 w1 c1 w2 c2 w3 c3 w4 c4 := by
  unfold net
  exact affine_pad h3 _ _
    (hidden_pad h2 _ _
      (hidden_pad h1 _ _ (first_pad h0 w1 c1 v1 d1 hv1 hd1) w2 c2 v2 d2 hv2 hd2)
      w3 c3 v3 d3 hv3 hd3)
    w4 v4 hv4 c4

/-- Under `IsPadded` the energies read off the transposed, zero-extended operands are the energies read off the weights. -/
theorem katomE_eq_atomE {W1 : Arr3 4 500 128} {b1 : Arr2 4 500} {W2 : Arr3 4 200 500} {b2 : Arr2 4 200}
    {W3 : Arr3 4 100 200} {b3 : Arr2 4 100} {W4 : Arr3 4 1 100} {b4 : Arr2 4 1}
    {P1 : Arr3 4 128 512} {q1 : Arr3 4 1 512} {P2 : Arr3 4 512 256} {q2 : Arr3 4 1 256}
    {P3 : Arr3 4 256 128} {q3 : Arr3 4 1 128} {P4 : Arr3 4 128 1} {q4 : Arr3 4 1 1}
    (hp : IsPadded W1 b1 W2 b2 W3 b3 W4 b4 P1 q1 P2 q2 P3 q3 P4 q4) (x : Arr3 4 131072 128) :
    katomE x P1 q1 P2 q2 P3 q3 P4 q4 = atomE x W1 b1 W2 b2 W3 b3 W4 b4 := by
  funext i
  unfold katomE atomE
  rw [hp.hq4 (i 0)]
  exact net_pad (by norm_num) (by norm_num) (by norm_num) _ _ _ _ _ _ _ _ _ _ _ _ _ _ _ _
    (fun j f => hp.hP1 (i 0) f j) (fun j => hp.hq1 (i 0) j)
    (fun j a => hp.hP2 (i 0) a j) (fun j => hp.hq2 (i 0) j)
    (fun k a => hp.hP3 (i 0) a k) (fun k => hp.hq3 (i 0) k)
    (fun k => hp.hP4 (i 0) k)

end Cert.AtomNet

end
-- ==== Proof.RefAtom.lean ====
import proofs.«112957_j8675833938301_1_alg».proof.Proof.Gen.ReferenceIdeal.Read
import proofs.«112957_j8675833938301_1_alg».proof.Proof.AtomNet

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read
open Cert.AtomNet (affine atomE)

/-! The reference computes the perceptron one whole array at a time: a contraction over the input axis, the bias
    broadcast along the atoms, a maximum with the zero array; three times, then the output unit. Read at one atom
    `(t, n)` and one unit, each stage is the affine unit of `Cert.AtomNet` followed by `max · 0`: the contraction reads
    the previous stage at `(t, n, k)` and the weights at `(t, unit, k)`, the two broadcasts read the bias at `(t, unit)`,
    and the zero array holds the real number zero. -/

section Layers

variable (x0 : (⟨S4x131072x128, .f32⟩ : BufTy).Contents (Elt Ideal)) (x3 : (⟨S4x500x128, .f32⟩ : BufTy).Contents (Elt Ideal))
    (x4 : (⟨S4x500, .f32⟩ : BufTy).Contents (Elt Ideal)) (x5 : (⟨S4x200x500, .f32⟩ : BufTy).Contents (Elt Ideal))
    (x6 : (⟨S4x200, .f32⟩ : BufTy).Contents (Elt Ideal)) (x7 : (⟨S4x100x200, .f32⟩ : BufTy).Contents (Elt Ideal))
    (x8 : (⟨S4x100, .f32⟩ : BufTy).Contents (Elt Ideal)) (x9 : (⟨S4x1x100, .f32⟩ : BufTy).Contents (Elt Ideal))
    (x10 : (⟨S4x1, .f32⟩ : BufTy).Contents (Elt Ideal))

/-- Unit `j` of the first hidden layer at atom `(t, n)`. -/
def hid1 (t : Fin 4) (n : Fin 131072) (j : Fin 500) : EReal :=
  max (affine (fun f => x0 (ix3 t n f)) (fun f => x3 (ix3 t j f)) (x4 (ix2 t j))) 0

/-- Unit `j` of the second hidden layer at atom `(t, n)`. -/
def hid2 (t : Fin 4) (n : Fin 131072) (j : Fin 200) : EReal :=
  max (affine (fun i => hid1 x0 x3 x4 t n i) (fun a => x5 (ix3 t j a)) (x6 (ix2 t j))) 0

/-- Unit `k` of the third hidden layer at atom `(t, n)`. -/
def hid3 (t : Fin 4) (n : Fin 131072) (k : Fin 100) : EReal :=
  max (affine (fun j => hid2 x0 x3 x4 x5 x6 t n j) (fun a => x7 (ix3 t k a)) (x8 (ix2 t k))) 0

/-- `atomE` at an atom is the output unit over the third hidden layer: the definitions unfolded. -/
theorem atomE_at (t : Fin 4) (n : Fin 131072) (z : Fin 1) :
    atomE x0 x3 x4 x5 x6 x7 x8 x9 x10 (ix3 t n z)
      = affine (fun k => hid3 x0 x3 x4 x5 x6 x7 x8 t n k) (fun k => x9 (ix3 t 0 k)) (x10 (ix2 t 0)) := rfl

/-! ### First layer: 128 features into 500 units -/

/-- The contraction's left operand is read at `(t, n, k)` … -/
theorem lidx0 (t : Fin 4) (n : Fin 131072) (j : Fin 500) (k : Fin 128) :
    lidx_main_v0 (ix3 t n j) k = ix3 t n k :=
  funext fun a => by match a with | ⟨0, _⟩ => rfl | ⟨1, _⟩ => rfl | ⟨2, _⟩ => rfl

/-- … and its right operand at `(t, j, k)`. -/
theorem ridx0 (t : Fin 4) (n : Fin 131072) (j : Fin 500) (k : Fin 128) :
    ridx_main_v0 (ix3 t n j) k = ix3 t j k :=
  funext fun a => by match a with | ⟨0, _⟩ => rfl | ⟨1, _⟩ => rfl | ⟨2, _⟩ => rfl

/-- The two broadcasts of the bias read it at `(t, j)`. -/
theorem bidx0 (t : Fin 4) (n : Fin 131072) (j : Fin 500) :
    idx_main_v1 (idx_main_v2 (ix3 t n j)) = ix2 t j :=
  funext fun a => by match a with | ⟨0, _⟩ => rfl | ⟨1, _⟩ => rfl

theorem v4_at (t : Fin 4) (n : Fin 131072) (j : Fin 500) :
    val_main_v4 (F := Ideal) x0 x3 x4 (ix3 t n j) = hid1 x0 x3 x4 t n j := by
  rw [val_main_v4_apply, val_main_v3_apply, val_main_v0_apply, val_main_v2_apply, val_main_v1_apply,
    val_main_call0_v0_apply, val_main_call0_cst_apply, bidx0, Ideal.ofBits_def, Ideal.ofBits_zero_f32,
    Ideal.maximumf_def, Ideal.addf_def]
  refine congrArg (fun s => max (s + x4 (ix2 t j)) 0) (Finset.sum_congr rfl fun k _ => ?_)
  rw [lidx0, ridx0]

/-! ### Second layer: 500 units into 200 -/

theorem lidx5 (t : Fin 4) (n : Fin 131072) (j : Fin 200) (k : Fin 500) :
    lidx_main_v5 (ix3 t n j) k = ix3 t n k :=
  funext fun a => by match a with | ⟨0, _⟩ => rfl | ⟨1, _⟩ => rfl | ⟨2, _⟩ => rfl

theorem ridx5 (t : Fin 4) (n : Fin 131072) (j : Fin 200) (k : Fin 500) :
    ridx_main_v5 (ix3 t n j) k = ix3 t j k :=
  funext fun a => by match a with | ⟨0, _⟩ => rfl | ⟨1, _⟩ => rfl | ⟨2, _⟩ => rfl

theorem bidx5 (t : Fin 4) (n : Fin 131072) (j : Fin 200) :
    idx_main_v6 (idx_main_v7 (ix3 t n j)) = ix2 t j :=
  funext fun a => by match a with | ⟨0, _⟩ => rfl | ⟨1, _⟩ => rfl

theorem v9_at (t : Fin 4) (n : Fin 131072) (j : Fin 200) :
    val_main_v9 (F := Ideal) x0 x3 x4 x5 x6 (ix3 t n j) = hid2 x0 x3 x4 x5 x6 t n j := by
  rw [val_main_v9_apply, val_main_v8_apply, val_main_v5_apply, val_main_v7_apply, val_main_v6_apply,
    val_main_call1_v0_apply, val_main_call1_cst_apply, bidx5, Ideal.ofBits_def, Ideal.ofBits_zero_f32,
    Ideal.maximumf_def, Ideal.addf_def]
  refine congrArg (fun s => max (s + x6 (ix2 t j)) 0) (Finset.sum_congr rfl fun k _ => ?_)
  rw [lidx5, ridx5, v4_at]

/-! ### Third layer: 200 units into 100 -/

theorem lidx10 (t : Fin 4) (n : Fin 131072) (j : Fin 100) (k : Fin 200) :
    lidx_main_v10 (ix3 t n j) k = ix3 t n k :=
  funext fun a => by match a with | ⟨0, _⟩ => rfl | ⟨1, _⟩ => rfl | ⟨2, _⟩ => rfl

theorem ridx10 (t : Fin 4) (n : Fin 131072) (j : Fin 100) (k : Fin 200) :
    ridx_main_v10 (ix3 t n j) k = ix3 t j k :=
  funext fun a => by match a with | ⟨0, _⟩ => rfl | ⟨1, _⟩ => rfl | ⟨2, _⟩ => rfl

theorem bidx10 (t : Fin 4) (n : Fin 131072) (j : Fin 100) :
    idx_main_v11 (idx_main_v12 (ix3 t n j)) = ix2 t j :=
  funext fun a => by match a with | ⟨0, _⟩ => rfl | ⟨1, _⟩ => rfl

theorem v14_at (t : Fin 4) (n : Fin 131072) (j : Fin 100) :
    val_main_v14 (F := Ideal) x0 x3 x4 x5 x6 x7 x8 (ix3 t n j) = hid3 x0 x3 x4 x5 x6 x7 x8 t n j := by
  rw [val_main_v14_apply, val_main_v13_apply, val_main_v10_apply, val_main_v12_apply, val_main_v11_apply,
    val_main_call2_v0_apply, val_main_call2_cst_apply, bidx10, Ideal.ofBits_def, Ideal.ofBits_zero_f32,
    Ideal.maximumf_def, Ideal.addf_def]
  refine congrArg (fun s => max (s + x8 (ix2 t j)) 0) (Finset.sum_congr rfl fun k _ => ?_)
  rw [lidx10, ridx10, v9_at]

/-! ### The output unit: 100 units into one. The result's last axis has extent one, so the output weights' middle
    coordinate, which the contraction takes from it, is zero. -/

theorem lidx15 (t : Fin 4) (n : Fin 131072) (z : Fin 1) (k : Fin 100) :
    lidx_main_v15 (ix3 t n z) k = ix3 t n k :=
  funext fun a => by match a with | ⟨0, _⟩ => rfl | ⟨1, _⟩ => rfl | ⟨2, _⟩ => rfl

theorem ridx15 (t : Fin 4) (n : Fin 131072) (z : Fin 1) (k : Fin 100) :
    ridx_main_v15 (ix3 t n z) k = ix3 t 0 k :=
  funext fun a => by
    match a with
    | ⟨0, _⟩ => rfl
    | ⟨1, _⟩ => exact Fin.ext (by show z.val = 0; omega)
    | ⟨2, _⟩ => rfl

theorem bidx15 (t : Fin 4) (n : Fin 131072) (z : Fin 1) :
    idx_main_v16 (idx_main_v17 (ix3 t n z)) = ix2 t 0 :=
  funext fun a => by match a with | ⟨0, _⟩ => rfl | ⟨1, _⟩ => rfl

theorem v18_at (t : Fin 4) (n : Fin 131072) (z : Fin 1) :
    val_main_v18 (F := Ideal) x0 x3 x4 x5 x6 x7 x8 x9 x10 (ix3 t n z)
      = affine (fun k => hid3 x0 x3 x4 x5 x6 x7 x8 t n k) (fun k => x9 (ix3 t 0 k)) (x10 (ix2 t 0)) := by
  rw [val_main_v18_apply, val_main_v15_apply, val_main_v17_apply, val_main_v16_apply, bidx15, Ideal.addf_def]
  refine congrArg (fun s => s + x10 (ix2 t 0)) (Finset.sum_congr rfl fun k _ => ?_)
  rw [lidx15, ridx15, v14_at]

end Layers

/-- The reference's array of atom energies (its stage before the reshape and the scatter) is `atomE` of its arguments. -/
theorem atom_eq (x0 : (⟨S4x131072x128, .f32⟩ : BufTy).Contents (Elt Ideal)) (x3 : (⟨S4x500x128, .f32⟩ : BufTy).Contents (Elt Ideal))
    (x4 : (⟨S4x500, .f32⟩ : BufTy).Contents (Elt Ideal)) (x5 : (⟨S4x200x500, .f32⟩ : BufTy).Contents (Elt Ideal))
    (x6 : (⟨S4x200, .f32⟩ : BufTy).Contents (Elt Ideal)) (x7 : (⟨S4x100x200, .f32⟩ : BufTy).Contents (Elt Ideal))
    (x8 : (⟨S4x100, .f32⟩ : BufTy).Contents (Elt Ideal)) (x9 : (⟨S4x1x100, .f32⟩ : BufTy).Contents (Elt Ideal))
    (x10 : (⟨S4x1, .f32⟩ : BufTy).Contents (Elt Ideal)) :
    val_main_v18 (F := Ideal) x0 x3 x4 x5 x6 x7 x8 x9 x10 = Cert.AtomNet.atomE x0 x3 x4 x5 x6 x7 x8 x9 x10 := by
  funext i
  obtain ⟨t, n, z, rfl⟩ : ∃ t n z, i = ix3 t n z := ⟨i 0, i 1, i 2, eq_ix3 i⟩
  exact (v18_at x0 x3 x4 x5 x6 x7 x8 x9 x10 t n z).trans (atomE_at x0 x3 x4 x5 x6 x7 x8 x9 x10 t n z).symm

end Cert.ReferenceIdeal.RefValue

end
-- ==== Proof.Bridge.lean ====
/-
  The two programs compute one function.

  Both end by adding the atom energies into the molecule energies at the atoms' molecule indices (`tail`), so it is
  enough that their atom energies agree. The kernel program's are `katomE` of its operand arrays, which are the weights
  transposed and extended by zeros (`padded`), hence `atomE` of the weights (`katomE_eq_atomE`); the reference's are
  `atomE` of the weights outright (`atom_eq`). The lines after the energies are the same operations over the same
  literal dimension data in both programs, so the two spellings of `tail` are one term.
-/
import proofs.«112957_j8675833938301_1_alg».proof.Proof.KernelRun
import proofs.«112957_j8675833938301_1_alg».proof.Proof.HostArrays
import proofs.«112957_j8675833938301_1_alg».proof.Proof.PadAlgebra
import proofs.«112957_j8675833938301_1_alg».proof.Proof.RefAtom

noncomputable section

open Idealize.ShloMosaic Idealize.ShloMosaic.TcCoe Idealize.ShloMosaic.ValueIdx Idealize.SL.Sem

namespace Cert.Bridge

/-- The result both programs end at, from the kernel program's memory `m`: the molecule energies with every atom's
    energy `atomE` added at its molecule index. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v30) :=
  Cert.KernelIdeal.RunValue.tail (m ((c.tc : Thread Cert.KernelIdeal.nD Cert.KernelIdeal.τ).loc Cert.KernelIdeal.main_arg2)) (m ((c.tc : Thread Cert.KernelIdeal.nD Cert.KernelIdeal.τ).loc Cert.KernelIdeal.main_arg1))
      (Cert.AtomNet.atomE (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))

/-- The idealized kernel program ends at `result`, its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v30) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono (fun _ h c => ⟨(h c).1.trans (by
      unfold result
      rw [Cert.KernelIdeal.Gen.V_main_arg0 m c]
      exact congrArg (Cert.KernelIdeal.RunValue.tail _ _) (Cert.AtomNet.katomE_eq_atomE (Cert.KernelIdeal.HostValue.padded m c) _)), (h c).2⟩)
    (Cert.KernelIdeal.RunValue.run m ρ)

/-- The reference's result, as a function of its arguments, is `tail` of the molecule energies, the atom indices and
    `atomE` of the features and weights. -/
theorem ref_result (x0 : (⟨Cert.ReferenceIdeal.S4x131072x128, .f32⟩ : BufTy).Contents (Elt Ideal)) (x1 : (⟨Cert.ReferenceIdeal.S4x131072, .i32⟩ : BufTy).Contents (Elt Ideal))
    (x2 : (⟨Cert.ReferenceIdeal.S16384x1, .f32⟩ : BufTy).Contents (Elt Ideal)) (x3 : (⟨Cert.ReferenceIdeal.S4x500x128, .f32⟩ : BufTy).Contents (Elt Ideal))
    (x4 : (⟨Cert.ReferenceIdeal.S4x500, .f32⟩ : BufTy).Contents (Elt Ideal)) (x5 : (⟨Cert.ReferenceIdeal.S4x200x500, .f32⟩ : BufTy).Contents (Elt Ideal))
    (x6 : (⟨Cert.ReferenceIdeal.S4x200, .f32⟩ : BufTy).Contents (Elt Ideal)) (x7 : (⟨Cert.ReferenceIdeal.S4x100x200, .f32⟩ : BufTy).Contents (Elt Ideal))
    (x8 : (⟨Cert.ReferenceIdeal.S4x100, .f32⟩ : BufTy).Contents (Elt Ideal)) (x9 : (⟨Cert.ReferenceIdeal.S4x1x100, .f32⟩ : BufTy).Contents (Elt Ideal))
    (x10 : (⟨Cert.ReferenceIdeal.S4x1, .f32⟩ : BufTy).Contents (Elt Ideal)) :
    Cert.ReferenceIdeal.Read.val_main_v27 (F := Ideal) x0 x1 x2 x3 x4 x5 x6 x7 x8 x9 x10
      = Cert.KernelIdeal.RunValue.tail x2 x1 (Cert.AtomNet.atomE x0 x3 x4 x5 x6 x7 x8 x9 x10) := by
  unfold Cert.ReferenceIdeal.Read.val_main_v27 Cert.ReferenceIdeal.Read.val_main_v20
  rw [Cert.ReferenceIdeal.RefValue.atom_eq]
  rfl

end Cert.Bridge

end
-- ==== Proof.lean ====
/-
  The certificate: a per-atom perceptron fused into one kernel, against its layer-by-layer reference.

  For four atom types with 131072 atoms each, an atom's 128 features go through three hidden layers of 500, 200 and 100
  units (an affine map, then `max · 0`) and one affine output unit, with the weights of the atom's type; the atom
  energies are then added into 16384 molecule energies at each atom's molecule index. The reference contracts the
  feature axis against weights laid out [type, unit, input], layer by layer over all atoms at once. The kernel works on
  blocks of 2048 atoms of one type, with every weight matrix transposed to [type, input, unit] and every hidden width
  extended by zeros to 512, 256 and 128 beforehand, and multiplies in a narrower float format, which at the extended
  reals is no change at all.

  At the extended reals the two agree entry by entry, for all inputs: a hidden unit beyond the original width has zero
  weights and a zero bias, so it holds `max 0 0 = 0` and meets only zero weights in the next layer, and `x * 0 = 0`
  holds for every extended real, so the extended sums are the original ones (Proof/PadAlgebra.lean); no finiteness of
  the inputs is used. Proof/AtomNet.lean states the network once; Proof/RefAtom.lean reads the reference's energies as
  that network; Proof/HostArrays.lean reads the kernel's operand arrays as the transposed, zero-extended weights;
  Proof/BodyRow.lean reads one row of the kernel's output block, Proof/RegionArray.lean the whole output array from
  its 256 blocks, Proof/KernelRun.lean the program's result after the final accumulation; Proof/Bridge.lean joins the
  two sides. The three frame claims are the frame runs; the idealization rewrote nothing, so it is preserved trivially.
-/
import proofs.«112957_j8675833938301_1_alg».proof.Defs
import proofs.«112957_j8675833938301_1_alg».proof.Proof.Gen.Kernel
import proofs.«112957_j8675833938301_1_alg».proof.Proof.Gen.Kernel.Skeleton
import proofs.«112957_j8675833938301_1_alg».proof.Proof.Gen.Kernel.Launch
import proofs.«112957_j8675833938301_1_alg».proof.Proof.Gen.Kernel.Points
import proofs.«112957_j8675833938301_1_alg».proof.Proof.Gen.Kernel.Frame
import proofs.«112957_j8675833938301_1_alg».proof.Proof.Gen.KernelIdeal
import proofs.«112957_j8675833938301_1_alg».proof.Proof.Gen.KernelIdeal.Skeleton
import proofs.«112957_j8675833938301_1_alg».proof.Proof.Gen.KernelIdeal.Launch
import proofs.«112957_j8675833938301_1_alg».proof.Proof.Gen.KernelIdeal.Points
import proofs.«112957_j8675833938301_1_alg».proof.Proof.Gen.KernelIdeal.Frame
import proofs.«112957_j8675833938301_1_alg».proof.Proof.Gen.ReferenceIdeal
import proofs.«112957_j8675833938301_1_alg».proof.Proof.Gen.ReferenceIdeal.Run
import proofs.«112957_j8675833938301_1_alg».proof.Proof.Gen.ReferenceIdeal.Read
import proofs.«112957_j8675833938301_1_alg».proof.Proof.Gen.Pre_finite_inputs
import proofs.«112957_j8675833938301_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as they were. -/
theorem frame_kernel : @Cert.frame_Kernel Cert.Kernel.Gen.facts Cert.Pre_finite_inputs.Gen.facts :=
  fun m ρ _ => Cert.Kernel.Gen.frame m ρ

/-- So does the idealized kernel program. -/
theorem frame_kernelIdeal : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both idealized programs end at one result: the molecule energies with
    every atom's energy added at its molecule index. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨Cert.Bridge.result m, Cert.Bridge.kernel_run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v27_eq, Cert.Bridge.ref_result,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
